-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x1000 : Shape := ⟨2, ![2048, 1000]⟩
abbrev S2048 : Shape := ⟨1, ![2048]⟩
abbrev S1000x2048 : Shape := ⟨2, ![1000, 2048]⟩
abbrev S1000 : Shape := ⟨1, ![1000]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x1000 : S_.BroadcastsInDim S2048x1000 (![] : Fin 0 → Fin S2048x1000.rank)
  reducesTo_S2048x1000_S_d0_1 : S2048x1000.ReducesTo [0, 1] S_
  bcast_S_S2048 : S_.BroadcastsInDim S2048 (![] : Fin 0 → Fin S2048.rank)
  reducesTo_S2048_S_d0 : S2048.ReducesTo [0] S_
  bcast_S_S1000x2048 : S_.BroadcastsInDim S1000x2048 (![] : Fin 0 → Fin S1000x2048.rank)
  reducesTo_S1000x2048_S_d0_1 : S1000x2048.ReducesTo [0, 1] S_
  bcast_S_S1000 : S_.BroadcastsInDim S1000 (![] : Fin 0 → Fin S1000.rank)
  reducesTo_S1000_S_d0 : S1000.ReducesTo [0] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg6 : IVec S8192 32) (main_v32 : IVec S_ 1) (main_c_12 : IVec S_ 32) : IVec S_ 1 :=
  let main_v33 : IVec S8192 32 := broadcastInDim S8192 ![] bcast_S_S8192 main_c_12
  let main_v34 : IVec S8192 1 := cmpi .slt main_arg6 main_v33
  let main_c_13 : IVec S_ 1 := constantI S_ 1 1#1
  let main_v35 : IVec S_ 1 := (fun x v => Host.reduce IntOp.andi x v reducesTo_S8192_S_d0 h_S_) main_v34 main_c_13
  let main_v36 : IVec S_ 1 := andi main_v32 main_v35
  main_v36

def fn_part1 {F : FTy → Type} [FloatOps F] (main_arg4 : FVec F S1000 .f32) (main_arg5 : FVec F S8192x2048 .f32) (main_arg6 : IVec S8192 32) (main_v13 : IVec S_ 1) (main_v16 : IVec S1000x2048 1) : IVec S_ 1 :=
  let main_c_5 : IVec S_ 1 := constantI S_ 1 1#1
  let main_v17 : IVec S_ 1 := (fun x v => Host.reduce IntOp.andi x v reducesTo_S1000x2048_S_d0_1 h_S_) main_v16 main_c_5
  let main_v18 : IVec S_ 1 := andi main_v13 main_v17
  let main_v19 : FVec F S1000 .f32 := Host.absf main_arg4
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_c_10 : IVec S_ 32 := constantI S_ 32 0#32
  let main_v29 : IVec S8192 32 := broadcastInDim S8192 ![] bcast_S_S8192 main_c_10
  let main_v30 : IVec S8192 1 := cmpi .sge main_arg6 main_v29
  let main_c_11 : IVec S_ 1 := constantI S_ 1 1#1
  let main_v31 : IVec S_ 1 := (fun x v => Host.reduce IntOp.andi x v reducesTo_S8192_S_d0 h_S_) main_v30 main_c_11
  let main_v32 : IVec S_ 1 := andi main_v28 main_v31
  let main_c_12 : IVec S_ 32 := constantI S_ 32 1000#32
  fn_part2 (F := F) main_arg6 main_v32 main_c_12

def fn {F : FTy → Type} [FloatOps F] (main_arg0 : FVec F S8192x2048 .f32) (main_arg1 : FVec F S2048x1000 .f32) (main_arg2 : FVec F S2048 .f32) (main_arg3 : FVec F S1000x2048 .f32) (main_arg4 : FVec F S1000 .f32) (main_arg5 : FVec F S8192x2048 .f32) (main_arg6 : IVec S8192 32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x1000 .f32 := Host.absf main_arg1
  let main_cst_0 : FVec F S_ .f32 := constant S_ .f32 0x7F800000#32
  let main_v5 : FVec F S2048x1000 .f32 := broadcastInDim S2048x1000 ![] bcast_S_S2048x1000 main_cst_0
  let main_v6 : IVec S2048x1000 1 := cmpf .olt main_v4 main_v5
  let main_c_1 : IVec S_ 1 := constantI S_ 1 1#1
  let main_v7 : IVec S_ 1 := (fun x v => Host.reduce IntOp.andi x v reducesTo_S2048x1000_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S1000x2048 .f32 := Host.absf main_arg3
  let main_cst_4 : FVec F S_ .f32 := constant S_ .f32 0x7F800000#32
  let main_v15 : FVec F S1000x2048 .f32 := broadcastInDim S1000x2048 ![] bcast_S_S1000x2048 main_cst_4
  let main_v16 : IVec S1000x2048 1 := cmpf .olt main_v14 main_v15
  fn_part1 (F := F) main_arg4 main_arg5 main_arg6 main_v13 main_v16
-- ==== Kernel.lean ====
abbrev S8192x2048 : Shape := ⟨2, ![8192, 2048]⟩
abbrev S2048x1000 : Shape := ⟨2, ![2048, 1000]⟩
abbrev S2048 : Shape := ⟨1, ![2048]⟩
abbrev S1000x2048 : Shape := ⟨2, ![1000, 2048]⟩
abbrev S1000 : Shape := ⟨1, ![1000]⟩
abbrev S8192 : Shape := ⟨1, ![8192]⟩
abbrev S8192x1 : Shape := ⟨2, ![8192, 1]⟩
abbrev S1x2048 : Shape := ⟨2, ![1, 2048]⟩
abbrev S1x1000 : Shape := ⟨2, ![1, 1000]⟩
abbrev S8192x1000 : Shape := ⟨2, ![8192, 1000]⟩
abbrev S8x128 : Shape := ⟨2, ![8, 128]⟩
abbrev S256x2048 : Shape := ⟨2, ![256, 2048]⟩
abbrev S256x1 : Shape := ⟨2, ![256, 1]⟩
abbrev S256x1000 : Shape := ⟨2, ![256, 1000]⟩
abbrev S256 : Shape := ⟨1, ![256]⟩
abbrev S1 : Shape := ⟨1, ![1]⟩
abbrev S1x1 : Shape := ⟨2, ![1, 1]⟩
abbrev S_ : Shape := ⟨0, ![]⟩

abbrev nBuf : Space → Nat
  | .hbm => 18
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048x1000, .f32⟩
  | .hbm, ⟨2, _⟩ => ⟨S2048, .f32⟩
  | .hbm, ⟨3, _⟩ => ⟨S1000x2048, .f32⟩
  | .hbm, ⟨4, _⟩ => ⟨S1000, .f32⟩
  | .hbm, ⟨5, _⟩ => ⟨S8192x2048, .f32⟩
  | .hbm, ⟨6, _⟩ => ⟨S8192, .i32⟩
  | .hbm, ⟨7, _⟩ => ⟨S8192x1, .i32⟩
  | .hbm, ⟨8, _⟩ => ⟨S1000x2048, .f32⟩
  | .hbm, ⟨9, _⟩ => ⟨S1000x2048, .bf16⟩
  | .hbm, ⟨10, _⟩ => ⟨S2048x1000, .f32⟩
  | .hbm, ⟨11, _⟩ => ⟨S2048x1000, .bf16⟩
  | .hbm, ⟨12, _⟩ => ⟨S1x2048, .f32⟩
  | .hbm, ⟨13, _⟩ => ⟨S1x1000, .f32⟩
  | .hbm, ⟨14, _⟩ => ⟨S8192x1000, .f32⟩
  | .hbm, ⟨15, _⟩ => ⟨S8x128, .f32⟩
  | .hbm, ⟨16, _⟩ => ⟨S1x1, .f32⟩
  | .hbm, ⟨17, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .i32⟩
  | .local _ .vmem, ⟨5, _⟩ => ⟨S256x1, .i32⟩
  | .local _ .vmem, ⟨6, _⟩ => ⟨S1000x2048, .bf16⟩
  | .local _ .vmem, ⟨7, _⟩ => ⟨S1x2048, .f32⟩
  | .local _ .vmem, ⟨8, _⟩ => ⟨S2048x1000, .bf16⟩
  | .local _ .vmem, ⟨9, _⟩ => ⟨S1x1000, .f32⟩
  | .local _ .vmem, ⟨10, _⟩ => ⟨S256x1000, .f32⟩
  | .local _ .vmem, ⟨11, _⟩ => ⟨S256x1000, .f32⟩
  | .local _ .vmem, ⟨12, _⟩ => ⟨S8x128, .f32⟩
  | .local _ .vmem, ⟨13, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v73 : BitVec 1 := Scalar.cmpi .eq arg0 c31_i32
  let v74 : BitVec 32 := Scalar.extui v73
  let c0_i32_35 : BitVec 32 := 0#32
  let v75 : BitVec 1 := Scalar.cmpi .ne v74 c0_i32_35
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1000x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1000 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  shapeCasts_S8192_S8192x1 : S8192.ShapeCasts S8192x1
  transposes_S2048x1000_S1000x2048_1_0 : S2048x1000.Transposes [1, 0] S1000x2048
  bitsLt_bf16_f32 : FTy.bits .bf16 < FTy.bits .f32
  transposes_S1000x2048_S2048x1000_1_0 : S1000x2048.Transposes [1, 0] S2048x1000
  shapeCasts_S2048_S1x2048 : S2048.ShapeCasts S1x2048
  shapeCasts_S1000_S1x1000 : S1000.ShapeCasts S1x1000
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S256x2048_S256x2048_0_0 : ∀ a, (![0, 0] : Fin 2 → Nat) a + S256x2048.size a ≤ S256x2048.size a
  h_S256x2048 : 0 < S256x2048.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x1000_d1_w32 : S256x1000.Iotas .tc 32 [1]
  broadcasts_S256x1_S256x1000 : S256x1.Broadcasts S256x1000
  natLt_1_32 : 1 < 32
  inb_S1000x2048_S1000x2048_0_0 : ∀ a, (![0, 0] : Fin 2 → Nat) a + S1000x2048.size a ≤ S1000x2048.size a
  h_S1000x2048 : 0 < S1000x2048.numel
  shapeCasts_S1000x2048_S1000x2048 : S1000x2048.ShapeCasts S1000x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  reduces_S256x2048_S256 : S256x2048.Reduces [1] S256
  shapeCasts_S256_S256x1 : S256.ShapeCasts S256x1
  inb_S2048x1000_S2048x1000_0_0 : ∀ a, (![0, 0] : Fin 2 → Nat) a + S2048x1000.size a ≤ S2048x1000.size a
  h_S2048x1000 : 0 < S2048x1000.numel
  shapeCasts_S2048x1000_S2048x1000 : S2048x1000.ShapeCasts S2048x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S256x1000 : S1x1000.Broadcasts S256x1000
  reduces_S256x1000_S256 : S256x1000.Reduces [1] S256
  reduces_S256x1_S1 : S256x1.Reduces [0] S1
  shapeCasts_S1_S1x1 : S1.ShapeCasts S1x1
  shapeCasts_S1x1_S1x1 : S1x1.ShapeCasts S1x1
  broadcasts_S1x1_S8x128 : S1x1.Broadcasts S8x128
  inb_S256x1000_S256x1000_0_0 : ∀ a, (![0, 0] : Fin 2 → Nat) a + S256x1000.size a ≤ S256x1000.size a
  h_S256x1000 : 0 < S256x1000.numel
  slices_S8x128_S1x1_0_0 : S8x128.Slices ![0, 0] S1x1
  shapeCasts_S1x1_S_ : S1x1.ShapeCasts S_
  dot_S256x1000_S1000x2048_S256x2048_1_0_0_1_n_n_wf : DotDims.WF S256x1000 S1000x2048 S256x2048 [1] [0] [0] [1] [] []
  dot_S256x2048_S2048x1000_S256x1000_1_0_0_1_n_n_wf : DotDims.WF S256x2048 S2048x1000 S256x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x2048.size a ≤ S1000x2048.size a
  hwx0_3 : ∀ i : grid0.Coords, EltTy.bits .bf16 = 32 ∨ (Rect.block (s := S1000x2048) S1000x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x1000.size a ≤ S2048x1000.size a
  hwx0_5 : ∀ i : grid0.Coords, EltTy.bits .bf16 = 32 ∨ (Rect.block (s := S2048x1000) S2048x1000.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1000.size a ≤ S1x1000.size a
  hwx0_6 : ∀ i : grid0.Coords, EltTy.bits .f32 = 32 ∨ (Rect.block (s := S1x1000) S1x1000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1000.size a ≤ S8192x1000.size a
  hwx0_7 : ∀ i : grid0.Coords, EltTy.bits .f32 = 32 ∨ (Rect.block (s := S8192x1000) S256x1000.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S8x128.size a
  hwx0_8 : ∀ i : grid0.Coords, EltTy.bits .f32 = 32 ∨ (Rect.block (s := S8x128) S8x128.size (cc0_transform_8 i) (hinb0_8 i)).WholeWords (EltTy.packing .f32)

variable [Facts₀]

def dot_S256x1000_S1000x2048_S256x2048_1_0_0_1_n_n : DotDims S256x1000 S1000x2048 S256x2048 where
  lhsContracting := [1]
  rhsContracting := [0]
  lhsNonContracting := [0]
  rhsNonContracting := [1]
  lhsBatch := []
  rhsBatch := []
  wf := dot_S256x1000_S1000x2048_S256x2048_1_0_0_1_n_n_wf
def dot_S256x2048_S2048x1000_S256x1000_1_0_0_1_n_n : DotDims S256x2048 S2048x1000 S256x1000 where
  lhsContracting := [1]
  rhsContracting := [0]
  lhsNonContracting := [0]
  rhsNonContracting := [1]
  lhsBatch := []
  rhsBatch := []
  wf := dot_S256x2048_S2048x1000_S256x1000_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1000x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048x1000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S256x1000.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S8x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x1000 : Shape := ⟨2, ![2048, 1000]⟩
abbrev S2048 : Shape := ⟨1, ![2048]⟩
abbrev S1000x2048 : Shape := ⟨2, ![1000, 2048]⟩
abbrev S1000 : Shape := ⟨1, ![1000]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S2048x8192 : Shape := ⟨2, ![2048, 8192]⟩
abbrev S1x2048 : Shape := ⟨2, ![1, 2048]⟩
abbrev S8192x1000 : Shape := ⟨2, ![8192, 1000]⟩
abbrev S1x1000 : Shape := ⟨2, ![1, 1000]⟩
abbrev S8192x1x1 : Shape := ⟨3, ![8192, 1, 1]⟩
abbrev S1x1x1 : Shape := ⟨3, ![1, 1, 1]⟩

abbrev nBuf : Space → Nat
  | .hbm => 108
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1000, .f32⟩
  | .hbm, ⟨2, _⟩ => ⟨S2048, .f32⟩
  | .hbm, ⟨3, _⟩ => ⟨S1000x2048, .f32⟩
  | .hbm, ⟨4, _⟩ => ⟨S1000, .f32⟩
  | .hbm, ⟨5, _⟩ => ⟨S8192x2048, .f32⟩
  | .hbm, ⟨6, _⟩ => ⟨S8192, .i32⟩
  | .hbm, ⟨7, _⟩ => ⟨S8192x2048, .f32⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S8192x1, .i32⟩
  | .hbm, ⟨16, _⟩ => ⟨S1, .i32⟩
  | .hbm, ⟨17, _⟩ => ⟨S_, .i32⟩
  | .hbm, ⟨18, _⟩ => ⟨S8192x1, .i32⟩
  | .hbm, ⟨19, _⟩ => ⟨S8192x1, .i1⟩
  | .hbm, ⟨20, _⟩ => ⟨S1x1, .i32⟩
  | .hbm, ⟨21, _⟩ => ⟨S8192x1, .i32⟩
  | .hbm, ⟨22, _⟩ => ⟨S8192x1, .i1⟩
  | .hbm, ⟨23, _⟩ => ⟨S8192x1, .i1⟩
  | .hbm, ⟨24, _⟩ => ⟨S_, .i1⟩
  | .hbm, ⟨25, _⟩ => ⟨S8192, .i1⟩
  | .hbm, ⟨26, _⟩ => ⟨S2048x8192, .f32⟩
  | .hbm, ⟨27, _⟩ => ⟨S2048x8192, .i1⟩
  | .hbm, ⟨28, _⟩ => ⟨S_, .f32⟩
  | .hbm, ⟨29, _⟩ => ⟨S2048x8192, .f32⟩
  | .hbm, ⟨30, _⟩ => ⟨S2048x8192, .f32⟩
  | .hbm, ⟨31, _⟩ => ⟨S8192x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S2048x1000, .f32⟩
  | .hbm, ⟨36, _⟩ => ⟨S8192x1000, .f32⟩
  | .hbm, ⟨37, _⟩ => ⟨S1x1000, .f32⟩
  | .hbm, ⟨38, _⟩ => ⟨S8192x1000, .f32⟩
  | .hbm, ⟨39, _⟩ => ⟨S8192x1000, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1000, .f32⟩
  | .hbm, ⟨44, _⟩ => ⟨S8192x1000, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192x1000, .f32⟩
  | .hbm, ⟨49, _⟩ => ⟨S8192x1000, .f32⟩
  | .hbm, ⟨50, _⟩ => ⟨S_, .f32⟩
  | .hbm, ⟨51, _⟩ => ⟨S8192x1000, .f32⟩
  | .hbm, ⟨52, _⟩ => ⟨S8192x1000, .f32⟩
  | .hbm, ⟨53, _⟩ => ⟨S8192x1000, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192x2048, .f32⟩
  | .hbm, ⟨65, _⟩ => ⟨S8192x2048, .f32⟩
  | .hbm, ⟨66, _⟩ => ⟨S_, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S8192x1, .i32⟩
  | .hbm, ⟨75, _⟩ => ⟨S_, .i32⟩
  | .hbm, ⟨76, _⟩ => ⟨S8192x1, .i32⟩
  | .hbm, ⟨77, _⟩ => ⟨S8192x1, .i1⟩
  | .hbm, ⟨78, _⟩ => ⟨S_, .i32⟩
  | .hbm, ⟨79, _⟩ => ⟨S8192x1, .i32⟩
  | .hbm, ⟨80, _⟩ => ⟨S8192x1, .i32⟩
  | .hbm, ⟨81, _⟩ => ⟨S8192x1, .i32⟩
  | .hbm, ⟨82, _⟩ => ⟨S8192x1x1, .i32⟩
  | .hbm, ⟨83, _⟩ => ⟨S1, .i32⟩
  | .hbm, ⟨84, _⟩ => ⟨S_, .i32⟩
  | .hbm, ⟨85, _⟩ => ⟨S8192x1x1, .i32⟩
  | .hbm, ⟨86, _⟩ => ⟨S8192x1x1, .i1⟩
  | .hbm, ⟨87, _⟩ => ⟨S1x1x1, .i32⟩
  | .hbm, ⟨88, _⟩ => ⟨S8192x1x1, .i32⟩
  | .hbm, ⟨89, _⟩ => ⟨S8192x1x1, .i1⟩
  | .hbm, ⟨90, _⟩ => ⟨S8192x1x1, .i1⟩
  | .hbm, ⟨91, _⟩ => ⟨S_, .i1⟩
  | .hbm, ⟨92, _⟩ => ⟨S8192x1, .i1⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S8192, .f32⟩
  | .hbm, ⟨98, _⟩ => ⟨S8192, .f32⟩
  | .hbm, ⟨99, _⟩ => ⟨S8192, .f32⟩
  | .hbm, ⟨100, _⟩ => ⟨S_, .f32⟩
  | .hbm, ⟨101, _⟩ => ⟨S8192, .f32⟩
  | .hbm, ⟨102, _⟩ => ⟨S8192, .f32⟩
  | .hbm, ⟨103, _⟩ => ⟨S8192, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_0 : Ref sig .tc := ⟨.hbm, 45, rfl⟩
abbrev main_cst_1 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_cst_2 : Ref sig .tc := ⟨.hbm, 56, rfl⟩
abbrev main_v19 : Ref sig .tc := ⟨.hbm, 57, rfl⟩
abbrev main_cst_3 : Ref sig .tc := ⟨.hbm, 58, rfl⟩
abbrev main_v20 : Ref sig .tc := ⟨.hbm, 59, rfl⟩
abbrev main_v21 : Ref sig .tc := ⟨.hbm, 60, rfl⟩
abbrev main_cst_4 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_5 : Ref sig .tc := ⟨.hbm, 66, rfl⟩
abbrev main_v26 : Ref sig .tc := ⟨.hbm, 67, rfl⟩
abbrev main_cst_6 : Ref sig .tc := ⟨.hbm, 68, rfl⟩
abbrev main_v27 : Ref sig .tc := ⟨.hbm, 69, rfl⟩
abbrev main_v28 : Ref sig .tc := ⟨.hbm, 70, rfl⟩
abbrev main_cst_7 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_cst : Ref sig .tc := ⟨.hbm, 94, rfl⟩
abbrev main_call2_v14 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_cst_8 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_cst_9 : Ref sig .tc := ⟨.hbm, 104, rfl⟩
abbrev main_v39 : Ref sig .tc := ⟨.hbm, 105, rfl⟩
abbrev main_cst_10 : Ref sig .tc := ⟨.hbm, 106, rfl⟩
abbrev main_v40 : Ref sig .tc := ⟨.hbm, 107, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S2048x8192_1 : S8192.BroadcastsInDim S2048x8192 (![1] : Fin 1 → Fin S2048x8192.rank)
  bcast_S_S2048x8192 : S_.BroadcastsInDim S2048x8192 (![] : Fin 0 → Fin S2048x8192.rank)
  transposes_S2048x8192_S8192x2048_1_0 : S2048x8192.Transposes [1, 0] S8192x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  transposes_S1000x2048_S2048x1000_1_0 : S1000x2048.Transposes [1, 0] S2048x1000
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  reducesTo_S8192x1000_S8192_d1 : S8192x1000.ReducesTo [1] S8192
  bcast_S8192x1_S8192x1000_0_1 : S8192x1.BroadcastsInDim S8192x1000 (![0, 1] : Fin 2 → Fin S8192x1000.rank)
  bcast_S_S8192x1000 : S_.BroadcastsInDim S8192x1000 (![] : Fin 0 → Fin S8192x1000.rank)
  reducesTo_S8192x2048_S8192_d1 : S8192x2048.ReducesTo [1] S8192
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  gather_S2048x1000_S8192x1_S2048x8192_0_1_n_n_1_1_20481_wf : GatherDims.WF S2048x1000 S8192x1 S2048x8192 [0] [1] [] [1] [] 1 ![2048, 1]
  dot_S8192x2048_S2048x1000_S8192x1000_1_0_0_1_n_n_wf : DotDims.WF S8192x2048 S2048x1000 S8192x1000 [1] [0] [0] [1] [] []
  gather_S8192x1000_S8192x1x1_S8192x1_n_1_0_0_1_2_11_wf : GatherDims.WF S8192x1000 S8192x1x1 S8192x1 [] [1] [0] [1] [0] 2 ![1, 1]

variable [Facts₀]

def gather_S2048x1000_S8192x1_S2048x8192_0_1_n_n_1_1_20481 : GatherDims S2048x1000 S8192x1 S2048x8192 where
  offsetDims := [0]
  collapsedSliceDims := [1]
  operandBatchingDims := []
  startIndicesBatchingDims := []
  startIndexMap := [1]
  indexVectorDim := 1
  sliceSizes := ![2048, 1]
  wf := gather_S2048x1000_S8192x1_S2048x8192_0_1_n_n_1_1_20481_wf
def dot_S8192x2048_S2048x1000_S8192x1000_1_0_0_1_n_n : DotDims S8192x2048 S2048x1000 S8192x1000 where
  lhsContracting := [1]
  rhsContracting := [0]
  lhsNonContracting := [0]
  rhsNonContracting := [1]
  lhsBatch := []
  rhsBatch := []
  wf := dot_S8192x2048_S2048x1000_S8192x1000_1_0_0_1_n_n_wf
def gather_S8192x1000_S8192x1x1_S8192x1_n_1_0_0_1_2_11 : GatherDims S8192x1000 S8192x1x1 S8192x1 where
  offsetDims := []
  collapsedSliceDims := [1]
  operandBatchingDims := [0]
  startIndicesBatchingDims := [0]
  startIndexMap := [1]
  indexVectorDim := 2
  sliceSizes := ![1, 1]
  wf := gather_S8192x1000_S8192x1x1_S8192x1_n_1_0_0_1_2_11_wf

class Facts : Prop extends Facts₀ where

variable [Facts]
-- ==== Proof.RefTerm.lean ====
/-
  The reference program's two results as array-level terms of its seven arguments: its operations composed in the
  order it applies them.  Negative labels are first shifted by the class count, labels outside [0, 999] select a
  fill value; the embedding column and the label's log-probability are gathered at the shifted label.
-/
import proofs.«402298_j34050500722818_2_alg».proof.Proof.Gen.ReferenceIdeal

noncomputable section

open Idealize.ShloMosaic Idealize.SL.Sem

namespace Cert.ReferenceIdeal.RefTerm

open Cert.ReferenceIdeal Cert.ReferenceIdeal.Gen

variable {F : FTy → Type} [FloatOps F]

/-- The sample: features plus noise. -/
def zsum (f e : FVec F S8192x2048 .f32) : FVec F S8192x2048 .f32 := addf f e

/-- The labels with negative ones shifted up by the class count. -/
def tnorm (T : IVec S8192 32) : IVec S8192 32 :=
  select (cmpi .slt T (broadcastInDim S8192 ![] bcast_S_S8192 (constantI S_ 32 0#32)))
    (addi T (broadcastInDim S8192 ![] bcast_S_S8192 (constantI S_ 32 1000#32))) T

/-- The shifted labels as a column of start indices. -/
def tidx (T : IVec S8192 32) : IVec S8192x1 32 := broadcastInDim S8192x1 ![0] bcast_S8192_S8192x1_0 (tnorm T)

/-- Per row: is the shifted label inside [0, 999]. -/
def tok (T : IVec S8192 32) : IVec S8192 1 :=
  Host.reduce IntOp.andi
    (andi (cmpi .sge (tidx T) (broadcastInDim S8192x1 ![] bcast_S_S8192x1 (constantI S_ 32 0#32)))
      (cmpi .sle (tidx T)
        (broadcastInDim S8192x1 ![0, 1] bcast_S1x1_S8192x1_0_1
          (broadcastInDim S1x1 ![1] bcast_S1_S1x1_1 (constantI S1 32 999#32)))))
    (constantI S_ 1 1#1) reducesTo_S8192x1_S8192_d1 h_S_

/-- The embedding columns picked by the labels: a (hidden coordinate, row) matrix. -/
def taken (yw : FVec F S2048x1000 .f32) (T : IVec S8192 32) : FVec F S2048x8192 .f32 :=
  select (broadcastInDim S2048x8192 ![1] bcast_S8192_S2048x8192_1 (tok T))
    (Host.gather gather_S2048x1000_S8192x1_S2048x8192_0_1_n_n_1_1_20481 yw (tidx T))
    (broadcastInDim S2048x8192 ![] bcast_S_S2048x8192 (constant S_ .f32 0x7FC00000#32))

/-- The label embeddings: the picked columns transposed, plus the bias. -/
def yemb (yw : FVec F S2048x1000 .f32) (yb : FVec F S2048 .f32) (T : IVec S8192 32) : FVec F S8192x2048 .f32 :=
  addf (transpose S8192x2048 [1, 0] (taken yw T) transposes_S2048x8192_S8192x2048_1_0)
    (broadcastInDim S8192x2048 ![0, 1] bcast_S1x2048_S8192x2048_0_1 (broadcastInDim S1x2048 ![1] bcast_S2048_S1x2048_1 yb))

/-- The class scores. -/
def praw (f e : FVec F S8192x2048 .f32) (cw : FVec F S1000x2048 .f32) (cb : FVec F S1000 .f32) : FVec F S8192x1000 .f32 :=
  addf (Host.dotGeneral dot_S8192x2048_S2048x1000_S8192x1000_1_0_0_1_n_n none (zsum f e)
      (transpose S2048x1000 [1, 0] cw transposes_S1000x2048_S2048x1000_1_0))
    (broadcastInDim S8192x1000 ![0, 1] bcast_S1x1000_S8192x1000_0_1 (broadcastInDim S1x1000 ![1] bcast_S1000_S1x1000_1 cb))

/-- The scores normalised by their row sums. -/
def pnorm (f e : FVec F S8192x2048 .f32) (cw : FVec F S1000x2048 .f32) (cb : FVec F S1000 .f32) : FVec F S8192x1000 .f32 :=
  Host.divf (praw f e cw cb)
    (broadcastInDim S8192x1000 ![0, 1] bcast_S8192x1_S8192x1000_0_1
      (broadcastInDim S8192x1 ![0] bcast_S8192_S8192x1_0
        (Host.reduceAdd (praw f e cw cb) (constant S_ .f32 0x00000000#32) reducesTo_S8192x1000_S8192_d1 h_S_)))

/-- FIRST RESULT: the clipped log-probabilities. -/
def outLogits (f e : FVec F S8192x2048 .f32) (cw : FVec F S1000x2048 .f32) (cb : FVec F S1000 .f32) : FVec F S8192x1000 .f32 :=
  Host.log
    (minimumf (broadcastInDim S8192x1000 ![] bcast_S_S8192x1000 (id (constant S_ .f32 0x3F7FFFFE#32)))
      (maximumf (broadcastInDim S8192x1000 ![] bcast_S_S8192x1000 (id (constant S_ .f32 0x34000000#32))) (pnorm f e cw cb)))

/-- Half the squared row norm of a difference matrix, plus the density's constant. -/
def halfSq (d : FVec F S8192x2048 .f32) : FVec F S8192 .f32 :=
  addf
    (mulf (broadcastInDim S8192 ![] bcast_S_S8192 (constant S_ .f32 0x3F000000#32))
      (Host.reduceAdd (mulf d d) (constant S_ .f32 0x00000000#32) reducesTo_S8192x2048_S8192_d1 h_S_))
    (broadcastInDim S8192 ![] bcast_S_S8192 (constant S_ .f32 0x44EB3F8E#32))

/-- The label's log-probability per row, as a column. -/
def picked (lg : FVec F S8192x1000 .f32) (T : IVec S8192 32) : FVec F S8192x1 .f32 :=
  let t1 : IVec S8192x1 32 := broadcastInDim S8192x1 ![0] bcast_S8192_S8192x1_0 T
  let t4 : IVec S8192x1 32 :=
    select (cmpi .slt t1 (broadcastInDim S8192x1 ![] bcast_S_S8192x1 (constantI S_ 32 0#32)))
      (addi t1 (broadcastInDim S8192x1 ![] bcast_S_S8192x1 (constantI S_ 32 1000#32))) t1
  let t5 : IVec S8192x1x1 32 := shapeCast S8192x1x1 t4 shapeCasts_S8192x1_S8192x1x1
  let ok : IVec S8192x1 1 :=
    Host.reduce IntOp.andi
      (andi (cmpi .sge t5 (broadcastInDim S8192x1x1 ![] bcast_S_S8192x1x1 (constantI S_ 32 0#32)))
        (cmpi .sle t5
          (broadcastInDim S8192x1x1 ![0, 1, 2] bcast_S1x1x1_S8192x1x1_0_1_2
            (broadcastInDim S1x1x1 ![2] bcast_S1_S1x1x1_2 (constantI S1 32 999#32)))))
      (constantI S_ 1 1#1) reducesTo_S8192x1x1_S8192x1_d2 h_S_
  select ok (Host.gather gather_S8192x1000_S8192x1x1_S8192x1_n_1_0_0_1_2_11 lg t5)
    (broadcastInDim S8192x1 ![] bcast_S_S8192x1 (constant S_ .f32 0x7FC00000#32))

/-- The row terms: the weighted difference of the two half-squared distances, minus the label's log-probability. -/
def rowTerms (f e : FVec F S8192x2048 .f32) (yw : FVec F S2048x1000 .f32) (yb : FVec F S2048 .f32)
    (cw : FVec F S1000x2048 .f32) (cb : FVec F S1000 .f32) (T : IVec S8192 32) : FVec F S8192 .f32 :=
  addf
    (mulf (broadcastInDim S8192 ![] bcast_S_S8192 (constant S_ .f32 0x0000001B#32))
      (subf (halfSq (subf (zsum f e) (yemb yw yb T))) (halfSq (subf (zsum f e) f))))
    (Host.negf (shapeCast S8192 (picked (outLogits f e cw cb) T) shapeCasts_S8192x1_S8192))

/-- SECOND RESULT: the mean of the row terms. -/
def outLoss (f e : FVec F S8192x2048 .f32) (yw : FVec F S2048x1000 .f32) (yb : FVec F S2048 .f32)
    (cw : FVec F S1000x2048 .f32) (cb : FVec F S1000 .f32) (T : IVec S8192 32) : FVec F S_ .f32 :=
  Host.divf
    (Host.reduceAdd (rowTerms f e yw yb cw cb T) (constant S_ .f32 0x00000000#32) reducesTo_S8192_S_d0 h_S_)
    (constant S_ .f32 0x46000000#32)

end Cert.ReferenceIdeal.RefTerm

end
-- ==== Proof.RefRun.lean ====
/-
  The reference program runs: it is a straight line of host operations (its outlined helper functions unfolded at
  their call sites), so every execution ends with each buffer at the operations' composition of the arguments — for
  the two results, the terms of the reference's array-level description.
-/
import proofs.«402298_j34050500722818_2_alg».proof.Proof.RefTerm
import Idealize.ShloMosaic.Lib.StableHlo.Run

noncomputable section

open Idealize.ShloMosaic Idealize.ShloMosaic.TcCoe Idealize.SL.Sem

namespace Cert.ReferenceIdeal.RefRun

open Cert.ReferenceIdeal Cert.ReferenceIdeal.Gen Cert.ReferenceIdeal.RefTerm Idealize.ShloMosaic.StableHlo

variable {F : FTy → Type} [FloatOps F]

/-- The reference's one hundred and one operations in order, each helper function's operations written out at its
    call site over that call's buffers: the label shift, the range test and the pick of the embedding columns
    (twenty-three, the select of the shift among them), the clip (six), the per-row pick of the label's entry
    (twenty-two), and around them the program's own fifty. -/
private abbrev ops : List (HloOp τ sig (Elt F)) :=
  [ StableHlo.binary main_arg0 main_arg5 main_v0 (addf : (⟨S8192x2048, .f32⟩ : BufTy).Contents (Elt F) → (⟨S8192x2048, .f32⟩ : BufTy).Contents (Elt F) → (⟨S8192x2048, .f32⟩ : BufTy).Contents (Elt F)),
    StableHlo.TRef.nullary main_call0.c (constantI S_ 32 0#32),
    StableHlo.TRef.unary main_call0.c main_call0.v0 (broadcastInDim S8192 ![] bcast_S_S8192),
    StableHlo.TRef.binary (TRef.of main_arg6 : TRef sig ⟨S8192, .i32⟩) main_call0.v0 main_call0.v1 (cmpi .slt),
    StableHlo.TRef.nullary main_call0.c_0 (constantI S_ 32 1000#32),
    StableHlo.TRef.unary main_call0.c_0 main_call0.v2 (broadcastInDim S8192 ![] bcast_S_S8192),
    StableHlo.TRef.binary (TRef.of main_arg6 : TRef sig ⟨S8192, .i32⟩) main_call0.v2 main_call0.v3 addi,
    StableHlo.TRef.ternary main_call0.v1 main_call0.v3 (TRef.of main_arg6 : TRef sig ⟨S8192, .i32⟩) main_call0.call0.v0 select,
    StableHlo.TRef.unary main_call0.call0.v0 main_call0.v5 (broadcastInDim S8192x1 ![0] bcast_S8192_S8192x1_0),
    StableHlo.TRef.nullary main_call0.c_1 (constantI S1 32 999#32),
    StableHlo.TRef.nullary main_call0.c_2 (constantI S_ 32 0#32),
    StableHlo.TRef.unary main_call0.c_2 main_call0.v6 (broadcastInDim S8192x1 ![] bcast_S_S8192x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S8192x1 ![0, 1] bcast_S1x1_S8192x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S8192x1_S8192_d1 h_S_),
    StableHlo.TRef.binary (TRef.of main_arg1 : TRef sig ⟨S2048x1000, .f32⟩) main_call0.v5 main_call0.v13 (fun x i => Host.gather gather_S2048x1000_S8192x1_S2048x8192_0_1_n_n_1_1_20481 x i),
    StableHlo.TRef.unary main_call0.v12 main_call0.v14 (broadcastInDim S2048x8192 ![1] bcast_S8192_S2048x8192_1),
    StableHlo.TRef.nullary main_call0.cst (constant S_ .f32 0x7FC00000#32),
    StableHlo.TRef.unary main_call0.cst main_call0.v15 (broadcastInDim S2048x8192 ![] bcast_S_S2048x8192),
    StableHlo.TRef.ternary main_call0.v14 main_call0.v13 main_call0.v15 main_call0.v16 select,
    StableHlo.unary main_v1 main_v2 ((transpose S8192x2048 [1, 0] · transposes_S2048x8192_S8192x2048_1_0) : (⟨S2048x8192, .f32⟩ : BufTy).Contents (Elt F) → (⟨S8192x2048, .f32⟩ : BufTy).Contents (Elt F)),
    StableHlo.unary main_arg2 main_v3 (broadcastInDim S1x2048 ![1] bcast_S2048_S1x2048_1 : (⟨S2048, .f32⟩ : BufTy).Contents (Elt F) → (⟨S1x2048, .f32⟩ : BufTy).Contents (Elt F)),
    StableHlo.unary main_v3 main_v4 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v2 main_v4 main_v5 (addf : (⟨S8192x2048, .f32⟩ : BufTy).Contents (Elt F) → (⟨S8192x2048, .f32⟩ : BufTy).Contents (Elt F) → (⟨S8192x2048, .f32⟩ : BufTy).Contents (Elt F)),
    StableHlo.unary main_arg3 main_v6 ((transpose S2048x1000 [1, 0] · transposes_S1000x2048_S2048x1000_1_0) : (⟨S1000x2048, .f32⟩ : BufTy).Contents (Elt F) → (⟨S2048x1000, .f32⟩ : BufTy).Contents (Elt F)),
    StableHlo.binary main_v0 main_v6 main_v7 ((fun l r => Host.dotGeneral dot_S8192x2048_S2048x1000_S8192x1000_1_0_0_1_n_n none l r) : (⟨S8192x2048, .f32⟩ : BufTy).Contents (Elt F) → (⟨S2048x1000, .f32⟩ : BufTy).Contents (Elt F) → (⟨S8192x1000, .f32⟩ : BufTy).Contents (Elt F)),
    StableHlo.unary main_arg4 main_v8 (broadcastInDim S1x1000 ![1] bcast_S1000_S1x1000_1 : (⟨S1000, .f32⟩ : BufTy).Contents (Elt F) → (⟨S1x1000, .f32⟩ : BufTy).Contents (Elt F)),
    StableHlo.unary main_v8 main_v9 (broadcastInDim S8192x1000 ![0, 1] bcast_S1x1000_S8192x1000_0_1 : (⟨S1x1000, .f32⟩ : BufTy).Contents (Elt F) → (⟨S8192x1000, .f32⟩ : BufTy).Contents (Elt F)),
    StableHlo.binary main_v7 main_v9 main_v10 (addf : (⟨S8192x1000, .f32⟩ : BufTy).Contents (Elt F) → (⟨S8192x1000, .f32⟩ : BufTy).Contents (Elt F) → (⟨S8192x1000, .f32⟩ : BufTy).Contents (Elt F)),
    StableHlo.nullary main_cst (constant S_ .f32 0x00000000#32),
    StableHlo.binary main_v10 main_cst main_v11 ((fun x v => Host.reduceAdd x v reducesTo_S8192x1000_S8192_d1 h_S_) : (⟨S8192x1000, .f32⟩ : BufTy).Contents (Elt F) → (⟨S_, .f32⟩ : BufTy).Contents (Elt F) → (⟨S8192, .f32⟩ : BufTy).Contents (Elt F)),
    StableHlo.unary main_v11 main_v12 (broadcastInDim S8192x1 ![0] bcast_S8192_S8192x1_0 : (⟨S8192, .f32⟩ : BufTy).Contents (Elt F) → (⟨S8192x1, .f32⟩ : BufTy).Contents (Elt F)),
    StableHlo.unary main_v12 main_v13 (broadcastInDim S8192x1000 ![0, 1] bcast_S8192x1_S8192x1000_0_1 : (⟨S8192x1, .f32⟩ : BufTy).Contents (Elt F) → (⟨S8192x1000, .f32⟩ : BufTy).Contents (Elt F)),
    StableHlo.binary main_v10 main_v13 main_v14 (Host.divf : (⟨S8192x1000, .f32⟩ : BufTy).Contents (Elt F) → (⟨S8192x1000, .f32⟩ : BufTy).Contents (Elt F) → (⟨S8192x1000, .f32⟩ : BufTy).Contents (Elt F)),
    StableHlo.nullary main_cst_0 (constant S_ .f32 0x34000000#32),
    StableHlo.nullary main_cst_1 (constant S_ .f32 0x3F7FFFFE#32),
    StableHlo.TRef.unary (TRef.of main_cst_0 : TRef sig ⟨S_, .f32⟩) main_call1.v0 id,
    StableHlo.TRef.unary main_call1.v0 main_call1.v1 (broadcastInDim S8192x1000 ![] bcast_S_S8192x1000),
    StableHlo.TRef.binary main_call1.v1 (TRef.of main_v14 : TRef sig ⟨S8192x1000, .f32⟩) main_call1.v2 maximumf,
    StableHlo.TRef.unary (TRef.of main_cst_1 : TRef sig ⟨S_, .f32⟩) main_call1.v3 id,
    StableHlo.TRef.unary main_call1.v3 main_call1.v4 (broadcastInDim S8192x1000 ![] bcast_S_S8192x1000),
    StableHlo.TRef.binary main_call1.v4 main_call1.v2 main_call1.v5 minimumf,
    StableHlo.unary main_v15 main_v16 (Host.log : (⟨S8192x1000, .f32⟩ : BufTy).Contents (Elt F) → (⟨S8192x1000, .f32⟩ : BufTy).Contents (Elt F)),
    StableHlo.binary main_v0 main_arg0 main_v17 (subf : (⟨S8192x2048, .f32⟩ : BufTy).Contents (Elt F) → (⟨S8192x2048, .f32⟩ : BufTy).Contents (Elt F) → (⟨S8192x2048, .f32⟩ : BufTy).Contents (Elt F)),
    StableHlo.binary main_v17 main_v17 main_v18 (mulf : (⟨S8192x2048, .f32⟩ : BufTy).Contents (Elt F) → (⟨S8192x2048, .f32⟩ : BufTy).Contents (Elt F) → (⟨S8192x2048, .f32⟩ : BufTy).Contents (Elt F)),
    StableHlo.nullary main_cst_2 (constant S_ .f32 0x00000000#32),
    StableHlo.binary main_v18 main_cst_2 main_v19 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    StableHlo.nullary main_cst_3 (constant S_ .f32 0x3F000000#32),
    StableHlo.unary main_cst_3 main_v20 (broadcastInDim S8192 ![] bcast_S_S8192 : (⟨S_, .f32⟩ : BufTy).Contents (Elt F) → (⟨S8192, .f32⟩ : BufTy).Contents (Elt F)),
    StableHlo.binary main_v20 main_v19 main_v21 (mulf : (⟨S8192, .f32⟩ : BufTy).Contents (Elt F) → (⟨S8192, .f32⟩ : BufTy).Contents (Elt F) → (⟨S8192, .f32⟩ : BufTy).Contents (Elt F)),
    StableHlo.nullary main_cst_4 (constant S_ .f32 0x44EB3F8E#32),
    StableHlo.unary main_cst_4 main_v22 (broadcastInDim S8192 ![] bcast_S_S8192 : (⟨S_, .f32⟩ : BufTy).Contents (Elt F) → (⟨S8192, .f32⟩ : BufTy).Contents (Elt F)),
    StableHlo.binary main_v21 main_v22 main_v23 (addf : (⟨S8192, .f32⟩ : BufTy).Contents (Elt F) → (⟨S8192, .f32⟩ : BufTy).Contents (Elt F) → (⟨S8192, .f32⟩ : BufTy).Contents (Elt F)),
    StableHlo.binary main_v0 main_v5 main_v24 (subf : (⟨S8192x2048, .f32⟩ : BufTy).Contents (Elt F) → (⟨S8192x2048, .f32⟩ : BufTy).Contents (Elt F) → (⟨S8192x2048, .f32⟩ : BufTy).Contents (Elt F)),
    StableHlo.binary main_v24 main_v24 main_v25 (mulf : (⟨S8192x2048, .f32⟩ : BufTy).Contents (Elt F) → (⟨S8192x2048, .f32⟩ : BufTy).Contents (Elt F) → (⟨S8192x2048, .f32⟩ : BufTy).Contents (Elt F)),
    StableHlo.nullary main_cst_5 (constant S_ .f32 0x00000000#32),
    StableHlo.binary main_v25 main_cst_5 main_v26 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    StableHlo.nullary main_cst_6 (constant S_ .f32 0x3F000000#32),
    StableHlo.unary main_cst_6 main_v27 (broadcastInDim S8192 ![] bcast_S_S8192 : (⟨S_, .f32⟩ : BufTy).Contents (Elt F) → (⟨S8192, .f32⟩ : BufTy).Contents (Elt F)),
    StableHlo.binary main_v27 main_v26 main_v28 (mulf : (⟨S8192, .f32⟩ : BufTy).Contents (Elt F) → (⟨S8192, .f32⟩ : BufTy).Contents (Elt F) → (⟨S8192, .f32⟩ : BufTy).Contents (Elt F)),
    StableHlo.nullary main_cst_7 (constant S_ .f32 0x44EB3F8E#32),
    StableHlo.unary main_cst_7 main_v29 (broadcastInDim S8192 ![] bcast_S_S8192 : (⟨S_, .f32⟩ : BufTy).Contents (Elt F) → (⟨S8192, .f32⟩ : BufTy).Contents (Elt F)),
    StableHlo.binary main_v28 main_v29 main_v30 (addf : (⟨S8192, .f32⟩ : BufTy).Contents (Elt F) → (⟨S8192, .f32⟩ : BufTy).Contents (Elt F) → (⟨S8192, .f32⟩ : BufTy).Contents (Elt F)),
    StableHlo.unary main_arg6 main_v31 (broadcastInDim S8192x1 ![0] bcast_S8192_S8192x1_0 : (⟨S8192, .i32⟩ : BufTy).Contents (Elt F) → (⟨S8192x1, .i32⟩ : BufTy).Contents (Elt F)),
    StableHlo.TRef.nullary main_call2.c (constantI S_ 32 0#32),
    StableHlo.TRef.unary main_call2.c main_call2.v0 (broadcastInDim S8192x1 ![] bcast_S_S8192x1),
    StableHlo.TRef.binary (TRef.of main_v31 : TRef sig ⟨S8192x1, .i32⟩) main_call2.v0 main_call2.v1 (cmpi .slt),
    StableHlo.TRef.nullary main_call2.c_0 (constantI S_ 32 1000#32),
    StableHlo.TRef.unary main_call2.c_0 main_call2.v2 (broadcastInDim S8192x1 ![] bcast_S_S8192x1),
    StableHlo.TRef.binary (TRef.of main_v31 : TRef sig ⟨S8192x1, .i32⟩) main_call2.v2 main_call2.v3 addi,
    StableHlo.TRef.ternary main_call2.v1 main_call2.v3 (TRef.of main_v31 : TRef sig ⟨S8192x1, .i32⟩) main_call2.v4 select,
    StableHlo.TRef.reshape main_call2.v4 main_call2.v5 rfl shapeCasts_S8192x1_S8192x1x1,
    StableHlo.TRef.nullary main_call2.c_1 (constantI S1 32 999#32),
    StableHlo.TRef.nullary main_call2.c_2 (constantI S_ 32 0#32),
    StableHlo.TRef.unary main_call2.c_2 main_call2.v6 (broadcastInDim S8192x1x1 ![] bcast_S_S8192x1x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S8192x1x1 ![0, 1, 2] bcast_S1x1x1_S8192x1x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S8192x1x1_S8192x1_d2 h_S_),
    StableHlo.TRef.binary (TRef.of main_v16 : TRef sig ⟨S8192x1000, .f32⟩) main_call2.v5 main_call2.v13 (fun x i => Host.gather gather_S8192x1000_S8192x1x1_S8192x1_n_1_0_0_1_2_11 x i),
    StableHlo.TRef.nullary main_call2.cst (constant S_ .f32 0x7FC00000#32),
    StableHlo.TRef.unary main_call2.cst main_call2.v14 (broadcastInDim S8192x1 ![] bcast_S_S8192x1),
    StableHlo.TRef.ternary main_call2.v12 main_call2.v13 main_call2.v14 main_call2.v15 select,
    StableHlo.reshape main_v32 main_v33 rfl shapeCasts_S8192x1_S8192,
    StableHlo.unary main_v33 main_v34 (Host.negf : (⟨S8192, .f32⟩ : BufTy).Contents (Elt F) → (⟨S8192, .f32⟩ : BufTy).Contents (Elt F)),
    StableHlo.binary main_v30 main_v23 main_v35 (subf : (⟨S8192, .f32⟩ : BufTy).Contents (Elt F) → (⟨S8192, .f32⟩ : BufTy).Contents (Elt F) → (⟨S8192, .f32⟩ : BufTy).Contents (Elt F)),
    StableHlo.nullary main_cst_8 (constant S_ .f32 0x0000001B#32),
    StableHlo.unary main_cst_8 main_v36 (broadcastInDim S8192 ![] bcast_S_S8192 : (⟨S_, .f32⟩ : BufTy).Contents (Elt F) → (⟨S8192, .f32⟩ : BufTy).Contents (Elt F)),
    StableHlo.binary main_v36 main_v35 main_v37 (mulf : (⟨S8192, .f32⟩ : BufTy).Contents (Elt F) → (⟨S8192, .f32⟩ : BufTy).Contents (Elt F) → (⟨S8192, .f32⟩ : BufTy).Contents (Elt F)),
    StableHlo.binary main_v37 main_v34 main_v38 (addf : (⟨S8192, .f32⟩ : BufTy).Contents (Elt F) → (⟨S8192, .f32⟩ : BufTy).Contents (Elt F) → (⟨S8192, .f32⟩ : BufTy).Contents (Elt F)),
    StableHlo.nullary main_cst_9 (constant S_ .f32 0x00000000#32),
    StableHlo.binary main_v38 main_cst_9 main_v39 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_10 (constant S_ .f32 0x46000000#32),
    StableHlo.binary main_v39 main_cst_10 main_v40 (Host.divf : (⟨S_, .f32⟩ : BufTy).Contents (Elt F) → (⟨S_, .f32⟩ : BufTy).Contents (Elt F) → (⟨S_, .f32⟩ : BufTy).Contents (Elt F)) ]

-- one hundred and one sequencing steps re-associated: the recursion is one level per step
set_option maxRecDepth 8192 in
set_option maxHeartbeats 1600000 in
/-- The program is that straight line: with the helper functions unfolded at their calls and the buffer records at
    their fields, both sides are one chain of steps once sequencing is re-associated. -/
private theorem main_eq (c : Dev nD) : main (F := F) c = seq ops := by
  simp only [main, fn_take.body, fn_where.body, fn_clip.body, fn_take_along_axis.body, seq, bind_assoc, pure_bind]

private theorem scopedRefs_eq : (Finset.univ.filter fun b : Ref sig .tc => b.isScoped) = ∅ := by decide
private theorem scopedSems_eq : (Finset.univ.filter fun sm : SemLoc sig => sm.isScoped .tc) = ∅ := by decide

/-- Every operation touches device buffers only. -/
private theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., unary_bufs_sub .., binary_bufs_sub .., unary_bufs_sub .., binary_bufs_sub ..,
    unary_bufs_sub .., unary_bufs_sub .., binary_bufs_sub .., nullary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., binary_bufs_sub ..,
    binary_bufs_sub .., nullary_bufs_sub .., binary_bufs_sub .., nullary_bufs_sub .., unary_bufs_sub .., binary_bufs_sub ..,
    nullary_bufs_sub .., unary_bufs_sub .., binary_bufs_sub .., binary_bufs_sub .., binary_bufs_sub .., nullary_bufs_sub ..,
    binary_bufs_sub .., nullary_bufs_sub .., unary_bufs_sub .., binary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., reshape_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    reshape_bufs_sub .., unary_bufs_sub .., binary_bufs_sub .., nullary_bufs_sub .., unary_bufs_sub .., binary_bufs_sub ..,
    binary_bufs_sub .., nullary_bufs_sub .., binary_bufs_sub .., nullary_bufs_sub .., binary_bufs_sub ..⟩

/-- Every execution terminates with each buffer at the operations' fold over the launch contents. -/
private theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the results and at the arguments

Each operation writes one buffer, its own: the fold read at a buffer is the writing operation's function of the fold
at its operands, and at a buffer no operation writes it is the launch contents. The typed references of the helper
functions' buffers carry their contents along an equation of a type with itself, which is the identity. -/

set_option maxRecDepth 8192 in
set_option maxHeartbeats 1600000 in
/-- The first result's buffer ends at the clipped log-probabilities' term. -/
private theorem logits_eq (V : Valuation τ sig (Elt F)) :
    after ops V (main_v16 : DevRef τ sig)
      = outLogits (V (main_arg0 : DevRef τ sig)) (V (main_arg5 : DevRef τ sig)) (V (main_arg3 : DevRef τ sig))
          (V (main_arg4 : DevRef τ sig)) := by
  after_results_simp
  simp only [cast_eq]
  unfold outLogits pnorm praw zsum
  rfl

set_option maxRecDepth 8192 in
set_option maxHeartbeats 1600000 in
/-- The second result's buffer ends at the loss's term: the mean over the rows of the weighted difference of the two
    half squared distances minus the label's log-probability. -/
private theorem loss_eq (V : Valuation τ sig (Elt F)) :
    after ops V (main_v40 : DevRef τ sig)
      = outLoss (V (main_arg0 : DevRef τ sig)) (V (main_arg5 : DevRef τ sig)) (V (main_arg1 : DevRef τ sig))
          (V (main_arg2 : DevRef τ sig)) (V (main_arg3 : DevRef τ sig)) (V (main_arg4 : DevRef τ sig))
          (V (main_arg6 : DevRef τ sig)) := by
  after_results_simp
  simp only [cast_eq]
  unfold outLoss rowTerms halfSq picked outLogits pnorm praw yemb taken tok tidx tnorm zsum
  rfl

set_option maxRecDepth 8192 in
/-- No operation writes argument 0's buffer. -/
private theorem arg0_eq (V : Valuation τ sig (Elt F)) :
    after ops V (main_arg0 : DevRef τ sig) = V (main_arg0 : DevRef τ sig) := by
  after_results_simp

set_option maxRecDepth 8192 in
/-- No operation writes argument 1's buffer. -/
private theorem arg1_eq (V : Valuation τ sig (Elt F)) :
    after ops V (main_arg1 : DevRef τ sig) = V (main_arg1 : DevRef τ sig) := by
  after_results_simp

set_option maxRecDepth 8192 in
/-- No operation writes argument 2's buffer. -/
private theorem arg2_eq (V : Valuation τ sig (Elt F)) :
    after ops V (main_arg2 : DevRef τ sig) = V (main_arg2 : DevRef τ sig) := by
  after_results_simp

set_option maxRecDepth 8192 in
/-- No operation writes argument 3's buffer. -/
private theorem arg3_eq (V : Valuation τ sig (Elt F)) :
    after ops V (main_arg3 : DevRef τ sig) = V (main_arg3 : DevRef τ sig) := by
  after_results_simp

set_option maxRecDepth 8192 in
/-- No operation writes argument 4's buffer. -/
private theorem arg4_eq (V : Valuation τ sig (Elt F)) :
    after ops V (main_arg4 : DevRef τ sig) = V (main_arg4 : DevRef τ sig) := by
  after_results_simp

set_option maxRecDepth 8192 in
/-- No operation writes argument 5's buffer. -/
private theorem arg5_eq (V : Valuation τ sig (Elt F)) :
    after ops V (main_arg5 : DevRef τ sig) = V (main_arg5 : DevRef τ sig) := by
  after_results_simp

set_option maxRecDepth 8192 in
/-- No operation writes argument 6's buffer. -/
private theorem arg6_eq (V : Valuation τ sig (Elt F)) :
    after ops V (main_arg6 : DevRef τ sig) = V (main_arg6 : DevRef τ sig) := by
  after_results_simp

/-- Every execution of the reference terminates with the first result at the clipped log-probabilities' term, the
    second at the loss's term, and the seven arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v16)
          = outLogits (m ((c : Thread nD τ).loc main_arg0)) (m ((c : Thread nD τ).loc main_arg5))
              (m ((c : Thread nD τ).loc main_arg3)) (m ((c : Thread nD τ).loc main_arg4))
      ∧ r.2.mem ((c : Thread nD τ).loc main_v40)
          = outLoss (m ((c : Thread nD τ).loc main_arg0)) (m ((c : Thread nD τ).loc main_arg5))
              (m ((c : Thread nD τ).loc main_arg1)) (m ((c : Thread nD τ).loc main_arg2))
              (m ((c : Thread nD τ).loc main_arg3)) (m ((c : Thread nD τ).loc main_arg4))
              (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
      ⟨(h c main_v16).trans (logits_eq (launchContents m c)), (h c main_v40).trans (loss_eq (launchContents m c)),
        (h c main_arg0).trans (arg0_eq (launchContents m c)), (h c main_arg1).trans (arg1_eq (launchContents m c)),
        (h c main_arg2).trans (arg2_eq (launchContents m c)), (h c main_arg3).trans (arg3_eq (launchContents m c)),
        (h c main_arg4).trans (arg4_eq (launchContents m c)), (h c main_arg5).trans (arg5_eq (launchContents m c)),
        (h c main_arg6).trans (arg6_eq (launchContents m c))⟩)
    (run_main m ρ)

end Cert.ReferenceIdeal.RefRun

end
-- ==== Proof.Spec.lean ====
/-
  The mathematics of the conditional-entropy-bottleneck loss, row by row, over the extended reals.

  For one sample row with features `fr`, noise `er` (both indexed by the 2048 hidden coordinates), the sample is
  `z = fr + er`.  Its class scores are `score q = (∑ k, z k · W k q) + b q`, normalised by their sum over the 1000
  classes, clipped to `[lo, hi]` and passed through the logarithm: `logit q`.  The row's loss term is
  `γ · (h2 − h1) + (−logit(label))` with `h2 = ½ ∑ (z − yemb)² + C`, `h1 = ½ ∑ er² + C`, where `yemb` is the label's
  column of the embedding matrix plus its bias.  The loss is the sum of the 8192 row terms divided by 8192.
  The constants are kept as the bit patterns both programs print: they are never evaluated.
-/
import Idealize.ShloMosaic.Lib.ValueIdx
import Idealize.ShloMosaic.PureOps.Ideal.Laws

noncomputable section

namespace CEB

open Idealize.ShloMosaic Idealize.ShloMosaic.ValueIdx

/-- A matrix of extended reals. -/
abbrev A2 (a b : Nat) : Type := (⟨2, ![a, b]⟩ : Shape).Idx → EReal
/-- A vector of extended reals. -/
abbrev A1 (a : Nat) : Type := (⟨1, ![a]⟩ : Shape).Idx → EReal
/-- A vector of 32-bit words (the labels). -/
abbrev T1 (a : Nat) : Type := (⟨1, ![a]⟩ : Shape).Idx → BitVec 32

/-- one half -/
def half : EReal := Ideal.ofBits .f32 0x3F000000#32
/-- the additive constant of both Gaussian log-densities, `½ · 2048 · log 2π` as the f32 both programs carry -/
def cst : EReal := Ideal.ofBits .f32 0x44EB3F8E#32
/-- the lower clip bound, f32 machine epsilon -/
def lo : EReal := Ideal.ofBits .f32 0x34000000#32
/-- the upper clip bound, one minus machine epsilon -/
def hi : EReal := Ideal.ofBits .f32 0x3F7FFFFE#32
/-- the weight of the rate term -/
def gam : EReal := Ideal.ofBits .f32 0x0000001B#32
/-- the batch size as a float, 8192 -/
def nB : EReal := Ideal.ofBits .f32 0x46000000#32

/-- The score of class `q` for a sample row `zr`: its product with column `q` of `W`, plus the bias. -/
def score (zr : Fin 2048 → EReal) (W : Fin 2048 → Fin 1000 → EReal) (b : Fin 1000 → EReal) (q : Fin 1000) : EReal :=
  (∑ k : Fin 2048, zr k * W k q) + b q

/-- The clipped log-probability of class `q`: the score over the sum of the row's scores, clipped, under the logarithm. -/
def logit (zr : Fin 2048 → EReal) (W : Fin 2048 → Fin 1000 → EReal) (b : Fin 1000 → EReal) (q : Fin 1000) : EReal :=
  Ideal.log (min hi (max lo (Ideal.div (score zr W b q) (∑ q' : Fin 1000, score zr W b q'))))

/-- One row's loss term from its features `fr`, its noise `er`, the label's embedding column `ycol`, the embedding bias
    `yb` and the label's clipped log-probability `lt`. -/
def rowLoss (fr er ycol yb : Fin 2048 → EReal) (lt : EReal) : EReal :=
  gam * ((half * (∑ k : Fin 2048, ((fr k + er k) - (ycol k + yb k)) * ((fr k + er k) - (ycol k + yb k))) + cst)
          - (half * (∑ k : Fin 2048, er k * er k) + cst))
    + (-lt)

/-- A label word as a class index (a word in `[0, 1000)` is its own value). -/
def cls (w : BitVec 32) : Fin 1000 := ⟨w.toNat % 1000, Nat.mod_lt _ (by decide)⟩

/-- The label of row `r` as a class index. -/
def col (T : T1 8192) (r : Fin 8192) : Fin 1000 := cls (T (ix1 r))

/-- The sample row `r`: features plus noise. -/
def zrow (f e : A2 8192 2048) (r : Fin 8192) : Fin 2048 → EReal := fun k => f (ix2 r k) + e (ix2 r k)

/-- The classifier's weight, read as (hidden coordinate, class). -/
def Wc (cw : A2 1000 2048) : Fin 2048 → Fin 1000 → EReal := fun k q => cw (ix2 q k)

/-- The classifier's bias by class. -/
def bc (cb : A1 1000) : Fin 1000 → EReal := fun q => cb (ix1 q)

/-- FIRST RESULT: the clipped log-probabilities, an 8192 × 1000 matrix. -/
def logits (f e : A2 8192 2048) (cw : A2 1000 2048) (cb : A1 1000) : A2 8192 1000 :=
  fun i => logit (zrow f e (i 0)) (Wc cw) (bc cb) (i 1)

/-- Row `r`'s loss term, from the whole arrays. -/
def rowTerm (f e : A2 8192 2048) (yw : A2 2048 1000) (yb : A1 2048) (cw : A2 1000 2048) (cb : A1 1000) (T : T1 8192)
    (r : Fin 8192) : EReal :=
  rowLoss (fun k => f (ix2 r k)) (fun k => e (ix2 r k)) (fun k => yw (ix2 k (col T r))) (fun k => yb (ix1 k))
    (logit (zrow f e r) (Wc cw) (bc cb) (col T r))

/-- SECOND RESULT: the loss, the mean of the row terms. -/
def loss (f e : A2 8192 2048) (yw : A2 2048 1000) (yb : A1 2048) (cw : A2 1000 2048) (cb : A1 1000) (T : T1 8192) : EReal :=
  Ideal.div (∑ r : Fin 8192, rowTerm f e yw yb cw cb T r) nB

/-- Row `256 · b + p` of the batch: row `p` of block `b`. -/
def brow (b : Fin 32) (p : Fin 256) : Fin 8192 := ⟨256 * b.val + p.val, by have := b.isLt; have := p.isLt; omega⟩

/-- The batch's rows are the 32 blocks of 256 rows: a sum over all rows is the sum over the blocks of the sums over
    each block's rows. -/
theorem sum_rows (g : Fin 8192 → EReal) : (∑ b : Fin 32, ∑ p : Fin 256, g (brow b p)) = ∑ r : Fin 8192, g r := by
  -- pairs (block, row in block) correspond one to one to rows, by (b, p) ↦ 256 · b + p
  let e : Fin 32 × Fin 256 ≃ Fin 8192 := finProdFinEquiv.trans (finCongr (by norm_num))
  have he : ∀ x : Fin 32 × Fin 256, brow x.1 x.2 = e x := fun x => Fin.ext (by
    show 256 * x.1.val + x.2.val = (e x).val
    simp only [e, Equiv.trans_apply, finCongr_apply, Fin.val_cast, finProdFinEquiv_apply_val]
    omega)
  rw [← Fintype.sum_prod_type' (fun b p => g (brow b p))]
  rw [← Equiv.sum_comp e g]
  exact Finset.sum_congr rfl fun x _ => by rw [he x]

end CEB

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.RefReadLogits.lean ====
/-
  The reference's first result term, read entry by entry over the extended reals, is the specification's matrix of
  clipped log-probabilities: the host's matrix product is the sum over the hidden coordinates, its row sum the sum
  over the classes, its clip and logarithm the same functions.
-/
import proofs.«402298_j34050500722818_2_alg».proof.Proof.RefTerm
import proofs.«402298_j34050500722818_2_alg».proof.Proof.Spec
import proofs.«402298_j34050500722818_2_alg».proof.Proof.LibPlainDot
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open Idealize.ShloMosaic Idealize.ShloMosaic.ValueIdx

namespace Cert.ReferenceIdeal.RefRead

open Cert.ReferenceIdeal Cert.ReferenceIdeal.Gen Cert.ReferenceIdeal.RefTerm

/-! ## General readings of layout operations and of the host's row sum -/

/-- A scalar laid over any shape reads the scalar at every index. -/
theorem bcastScalar_apply {α : Type} {T : Shape} (h : (⟨0, ![]⟩ : Shape).BroadcastsInDim T ![])
    (x : (⟨0, ![]⟩ : Shape).Idx → α) (j : T.Idx) : broadcastInDim T ![] h x j = x ix0 :=
  broadcastInDim_apply ![] h x j ix0 fun a => a.elim0

/-- A vector laid as a column and then along the rows of an [n × m] matrix reads, at (r, c), the vector at r. -/
theorem bcastCol_apply {α : Type} {n m : Nat} (h₁ : (⟨1, ![n]⟩ : Shape).BroadcastsInDim ⟨2, ![n, 1]⟩ ![0])
    (h₂ : (⟨2, ![n, 1]⟩ : Shape).BroadcastsInDim ⟨2, ![n, m]⟩ ![0, 1]) (v : (⟨1, ![n]⟩ : Shape).Idx → α)
    (r : Fin n) (c : Fin m) :
    broadcastInDim ⟨2, ![n, m]⟩ ![0, 1] h₂ (broadcastInDim ⟨2, ![n, 1]⟩ ![0] h₁ v) (ix2 r c) = v (ix1 r) := by
  have hr := r.isLt
  refine (broadcastInDim_apply ![0, 1] h₂ _ (ix2 r c) (ix2 r (0 : Fin 1)) fun a => ?_).trans
    (broadcastInDim_apply ![0] h₁ v (ix2 r (0 : Fin 1)) (ix1 r) fun a => ?_)
  · match a with
    | ⟨0, _⟩ => show r.val = if n = 1 then 0 else r.val; split <;> omega
    | ⟨1, _⟩ => rfl
  · match a with
    | ⟨0, _⟩ => show r.val = if n = 1 then 0 else r.val; split <;> omega

/-- A vector laid as a row and then down the columns of an [n × m] matrix reads, at (r, c), the vector at c. -/
theorem bcastRow_apply {α : Type} {n m : Nat} (h₁ : (⟨1, ![m]⟩ : Shape).BroadcastsInDim ⟨2, ![1, m]⟩ ![1])
    (h₂ : (⟨2, ![1, m]⟩ : Shape).BroadcastsInDim ⟨2, ![n, m]⟩ ![0, 1]) (v : (⟨1, ![m]⟩ : Shape).Idx → α)
    (r : Fin n) (c : Fin m) :
    broadcastInDim ⟨2, ![n, m]⟩ ![0, 1] h₂ (broadcastInDim ⟨2, ![1, m]⟩ ![1] h₁ v) (ix2 r c) = v (ix1 c) := by
  have hc := c.isLt
  refine (broadcastInDim_apply ![0, 1] h₂ _ (ix2 r c) (ix2 (0 : Fin 1) c) fun a => ?_).trans
    (broadcastInDim_apply ![1] h₁ v (ix2 (0 : Fin 1) c) (ix1 c) fun a => ?_)
  · match a with
    | ⟨0, _⟩ => rfl
    | ⟨1, _⟩ => show c.val = if m = 1 then 0 else c.val; split <;> omega
  · match a with
    | ⟨0, _⟩ => show c.val = if m = 1 then 0 else c.val; split <;> omega

/-- The host's sum over the last axis of an [n × m] matrix reads, at row r, the initial value plus the sum of the
    row's m entries. -/
theorem hostReduceAdd_rows_apply {n m : Nat} {u : Shape} {φ : FTy}
    (h' : (⟨2, ![n, m]⟩ : Shape).ReducesTo [1] ⟨1, ![n]⟩) (hu : 0 < u.numel)
    (x : FVec Ideal ⟨2, ![n, m]⟩ φ) (init : u.Idx → Ideal φ) (r : Fin n) :
    Host.reduceAdd x init h' hu (ix1 r) = init (Shape.Idx.first hu) + ∑ k : Fin m, x (ix2 r k) := by
  have h : (⟨2, ![n, m]⟩ : Shape).Reduces [1] ⟨1, ![n]⟩ := ⟨h'.1, Nat.one_pos, h'.2⟩
  show Ideal.hostReduceAdd h' x (init (Shape.Idx.first hu)) (ix1 r) = _
  rw [Ideal.hostReduceAdd_single h' h]
  show init (Shape.Idx.first hu) + ∑ k : Fin m, x (h.lift (ix1 r) k) = _
  refine congrArg _ (Finset.sum_congr rfl fun k _ => congrArg x (funext fun a => Fin.ext ?_))
  match a with
  | ⟨0, _⟩ => rfl
  | ⟨1, _⟩ => rfl

/-! ## The reference's stages at an entry -/

/-- The class scores at (r, c): the specification's score of class c for sample row r. -/
theorem praw_apply (f e : FVec Ideal S8192x2048 .f32) (cw : FVec Ideal S1000x2048 .f32) (cb : FVec Ideal S1000 .f32)
    (r : Fin 8192) (c : Fin 1000) :
    praw (F := Ideal) f e cw cb (ix2 r c) = CEB.score (CEB.zrow f e r) (CEB.Wc cw) (CEB.bc cb) c := by
  unfold praw
  rw [addf_apply]
  simp only [Host.dotGeneral]
  rw [PlainDot.dotGeneral_apply _ ⟨rfl, rfl, rfl, rfl, rfl, rfl⟩, bcastRow_apply]
  show (∑ k : Fin 2048, zsum f e (ix2 r k)
          * transpose S2048x1000 [1, 0] cw transposes_S1000x2048_S2048x1000_1_0 (ix2 k c)) + cb (ix1 c)
      = (∑ k : Fin 2048, (f (ix2 r k) + e (ix2 r k)) * cw (ix2 c k)) + cb (ix1 c)
  refine congrArg (· + cb (ix1 c)) (Finset.sum_congr rfl fun k _ => ?_)
  exact congrArg (zsum f e (ix2 r k) * ·) (transpose_ix2_apply cw _ k c)

/-- The normalised scores at (r, c): the score of class c over the sum of row r's scores. -/
theorem pnorm_apply (f e : FVec Ideal S8192x2048 .f32) (cw : FVec Ideal S1000x2048 .f32) (cb : FVec Ideal S1000 .f32)
    (r : Fin 8192) (c : Fin 1000) :
    pnorm (F := Ideal) f e cw cb (ix2 r c)
      = Ideal.div (CEB.score (CEB.zrow f e r) (CEB.Wc cw) (CEB.bc cb) c)
          (∑ q : Fin 1000, CEB.score (CEB.zrow f e r) (CEB.Wc cw) (CEB.bc cb) q) := by
  unfold pnorm
  show Ideal.div (praw (F := Ideal) f e cw cb (ix2 r c)) _ = _
  rw [praw_apply, bcastCol_apply, hostReduceAdd_rows_apply]
  simp only [praw_apply]
  show Ideal.div _ (Ideal.ofBits .f32 0x00000000#32 + _) = _
  rw [Ideal.ofBits_zero_f32, zero_add]

/-- The first result is the specification's log-probability matrix. -/
theorem outLogits_eq (f e : FVec Ideal S8192x2048 .f32) (cw : FVec Ideal S1000x2048 .f32) (cb : FVec Ideal S1000 .f32) :
    outLogits (F := Ideal) f e cw cb = CEB.logits f e cw cb := by
  funext i
  obtain ⟨r, c, rfl⟩ : ∃ (r : Fin 8192) (c : Fin 1000), i = ix2 r c := ⟨i 0, i 1, eq_ix2 i⟩
  unfold outLogits
  show Ideal.log (min _ (max _ (pnorm (F := Ideal) f e cw cb (ix2 r c)))) = _
  rw [pnorm_apply, bcastScalar_apply, bcastScalar_apply]
  rfl

end Cert.ReferenceIdeal.RefRead

end
-- ==== Proof.RefReadLoss.lean ====
/-
  The reference's second result term, read over the extended reals, is the specification's loss when the features are
  finite (so that (f + e) − f is e) and every label is a class index (so that both gathers read inside their tables,
  at the label itself, and neither fill value is selected).
-/
import proofs.«402298_j34050500722818_2_alg».proof.Proof.RefReadLogits
import Idealize.ShloMosaic.Lib.IdealHost
import Idealize.ShloMosaic.Lib.KernelVsHost

noncomputable section

open Idealize.ShloMosaic Idealize.ShloMosaic.ValueIdx

namespace Cert.ReferenceIdeal.RefRead

open Cert.ReferenceIdeal Cert.ReferenceIdeal.Gen Cert.ReferenceIdeal.RefTerm

/-! ## Words: a label below the class count is a non-negative signed word inside [0, 999] -/

/-- Such a word is not below zero as a signed word. -/
private theorem slt_zero_eq {w : BitVec 32} (hw : w.toNat < 1000) : IntOp.cmpi .slt w 0#32 = 0#1 := by
  refine eq_zero_of_ne_one fun h => ?_
  have := (StableHlo.Predicate.slt_iff_toNat (a := w) (b := 0#32) (by omega) (by decide)).1 h
  exact absurd this (by simp)

/-- It is at least zero as a signed word. -/
private theorem sge_zero_eq {w : BitVec 32} (hw : w.toNat < 1000) : IntOp.cmpi .sge w 0#32 = 1#1 :=
  (StableHlo.Predicate.sge_iff_toNat (a := w) (b := 0#32) (by omega) (by decide)).2 (by simp)

/-- It is at most 999 as a signed word. -/
private theorem sle_999_eq {w : BitVec 32} (hw : w.toNat < 1000) : IntOp.cmpi .sle w 999#32 = 1#1 :=
  (StableHlo.Predicate.sle_iff_toNat (a := w) (b := 999#32) (by omega) (by decide)).2
    (by show w.toNat ≤ 999; omega)

/-- Read signed and clamped into [0, 999] it is its own value, the class index of the specification. -/
private theorem clamp_eq_cls {w : BitVec 32} (hw : w.toNat < 1000) : min w.toInt.toNat 999 = (CEB.cls w).val := by
  rw [StableHlo.Predicate.toInt_eq_toNat_of_lt (by omega), Int.toNat_natCast]
  show min w.toNat 999 = w.toNat % 1000
  rw [Nat.mod_eq_of_lt hw]; omega

/-! ## An and-reduce whose every operand bit is one -/

private theorem foldl_andi_ones {ι : Type} (g : ι → BitVec 1) :
    ∀ l : List ι, (∀ n ∈ l, g n = 1#1) → l.foldl (fun r n => IntOp.andi r (g n)) 1#1 = 1#1
  | [], _ => rfl
  | a :: l, hl => by
    rw [List.foldl_cons, hl a (List.mem_cons_self ..)]
    exact foldl_andi_ones g l fun n hn => hl n (List.mem_cons_of_mem _ hn)

/-- The host's and-reduce from the bit one over operand bits that are all one is one, at every result index. -/
private theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x _ fun n _ => hx n

/-! ## The shifted labels are the labels, and every row's range test passes -/

/-- A label below the class count is not shifted. -/
private theorem tnorm_apply (T : IVec S8192 32) (r : Fin 8192) (hr : (T (ix1 r)).toNat < 1000) :
    tnorm T (ix1 r) = T (ix1 r) := by
  unfold tnorm
  rw [select_apply]
  show Scalar.select (IntOp.cmpi .slt (T (ix1 r)) 0#32) _ _ = _
  rw [slt_zero_eq hr, select_zero]

/-- The column of start indices reads the label of its row. -/
private theorem tidx_apply (T : IVec S8192 32) (r : Fin 8192) (c : Fin 1) (hr : (T (ix1 r)).toNat < 1000) :
    tidx T (ix2 r c) = T (ix1 r) := by
  unfold tidx
  rw [broadcastInDim_apply _ _ _ (ix2 r c) (ix1 r) (fun a => match a with | ⟨0, _⟩ => rfl)]
  exact tnorm_apply T r hr

/-- Every row's range test passes. -/
private theorem tok_apply (T : IVec S8192 32) (hT : ∀ r : Fin 8192, (T (ix1 r)).toNat < 1000) (r : Fin 8192) :
    tok T (ix1 r) = 1#1 := by
  unfold tok
  refine reduce_andi_ones _ _ _ _ rfl (fun i => ?_) _
  obtain ⟨a, b, rfl⟩ : ∃ (a : Fin 8192) (b : Fin 1), i = ix2 a b := ⟨i 0, i 1, eq_ix2 i⟩
  show IntOp.andi (IntOp.cmpi .sge (tidx T (ix2 a b)) 0#32) (IntOp.cmpi .sle (tidx T (ix2 a b)) 999#32) = 1#1
  rw [tidx_apply T a b (hT a), sge_zero_eq (hT a), sle_999_eq (hT a)]
  rfl

/-! ## The two gathers read at an entry

Per operand axis the gather reads at the clamped start index plus the batching coordinate plus the offset coordinate.
In the first gather the hidden axis is an offset axis (it reads the result's hidden coordinate) and the class axis is
collapsed and start-indexed (it reads the clamped label of the result's row).  In the second the row axis is a
batching axis (it reads the result's row) and the class axis is again collapsed and start-indexed. -/

/-- The gather of embedding columns at (hidden coordinate k, row r) reads column (label of r) at k. -/
private theorem gather_cols_apply (yw : FVec Ideal S2048x1000 .f32) (idx : IVec S8192x1 32) (k : Fin 2048) (r : Fin 8192)
    (w : BitVec 32) (hidx : idx (ix2 r (0 : Fin 1)) = w) (hw : w.toNat < 1000) :
    Host.gather gather_S2048x1000_S8192x1_S2048x8192_0_1_n_n_1_1_20481 yw idx (ix2 k r) = yw (ix2 k (CEB.cls w)) := by
  unfold Host.gather
  refine congrArg yw (funext fun a => Fin.ext ?_)
  match a with
  | ⟨0, _⟩ =>
    show gather_S2048x1000_S8192x1_S2048x8192_0_1_n_n_1_1_20481.start (ix2 k r) idx 0 + gather_S2048x1000_S8192x1_S2048x8192_0_1_n_n_1_1_20481.batchCoord (ix2 k r) 0 + gather_S2048x1000_S8192x1_S2048x8192_0_1_n_n_1_1_20481.offCoord (ix2 k r) 0 = k.val
    have hs : gather_S2048x1000_S8192x1_S2048x8192_0_1_n_n_1_1_20481.start (ix2 k r) idx 0 = 0 := by
      unfold GatherDims.start; rw [dif_neg (by decide)]
    have hb : gather_S2048x1000_S8192x1_S2048x8192_0_1_n_n_1_1_20481.batchCoord (ix2 k r) 0 = 0 := GatherDims.batchCoord_eq_zero _ _ _ List.not_mem_nil
    have ho : gather_S2048x1000_S8192x1_S2048x8192_0_1_n_n_1_1_20481.offCoord (ix2 k r) 0 = k.val := by
      unfold GatherDims.offCoord; rw [dif_pos (by decide)]; rfl
    rw [hs, hb, ho]; omega
  | ⟨1, _⟩ =>
    show gather_S2048x1000_S8192x1_S2048x8192_0_1_n_n_1_1_20481.start (ix2 k r) idx 1 + gather_S2048x1000_S8192x1_S2048x8192_0_1_n_n_1_1_20481.batchCoord (ix2 k r) 1 + gather_S2048x1000_S8192x1_S2048x8192_0_1_n_n_1_1_20481.offCoord (ix2 k r) 1 = (CEB.cls w).val
    have hb : gather_S2048x1000_S8192x1_S2048x8192_0_1_n_n_1_1_20481.batchCoord (ix2 k r) 1 = 0 := GatherDims.batchCoord_eq_zero _ _ _ List.not_mem_nil
    have ho : gather_S2048x1000_S8192x1_S2048x8192_0_1_n_n_1_1_20481.offCoord (ix2 k r) 1 = 0 := GatherDims.offCoord_eq_zero _ _ _ (by decide)
    rw [hb, ho]
    unfold GatherDims.start
    rw [dif_pos (show (1 : Fin 2) ∈ gather_S2048x1000_S8192x1_S2048x8192_0_1_n_n_1_1_20481.startIndexMap from List.mem_singleton.mpr rfl)]
    have hsi : gather_S2048x1000_S8192x1_S2048x8192_0_1_n_n_1_1_20481.siIdx (ix2 k r) ⟨List.idxOf (1 : Fin 2) gather_S2048x1000_S8192x1_S2048x8192_0_1_n_n_1_1_20481.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi, hidx]
    exact clamp_eq_cls hw

/-- The gather of the label's log-probability at (row r, 0) reads the matrix at (r, label of r). -/
private theorem gather_label_apply (lg : FVec Ideal S8192x1000 .f32) (idx : IVec S8192x1x1 32) (r : Fin 8192)
    (w : BitVec 32) (hidx : idx (ix3 r (0 : Fin 1) (0 : Fin 1)) = w) (hw : w.toNat < 1000) :
    Host.gather gather_S8192x1000_S8192x1x1_S8192x1_n_1_0_0_1_2_11 lg idx (ix2 r (0 : Fin 1)) = lg (ix2 r (CEB.cls w)) := by
  unfold Host.gather
  refine congrArg lg (funext fun a => Fin.ext ?_)
  match a with
  | ⟨0, _⟩ =>
    show gather_S8192x1000_S8192x1x1_S8192x1_n_1_0_0_1_2_11.start (ix2 r (0 : Fin 1)) idx 0 + gather_S8192x1000_S8192x1x1_S8192x1_n_1_0_0_1_2_11.batchCoord (ix2 r (0 : Fin 1)) 0 + gather_S8192x1000_S8192x1x1_S8192x1_n_1_0_0_1_2_11.offCoord (ix2 r (0 : Fin 1)) 0 = r.val
    have hs : gather_S8192x1000_S8192x1x1_S8192x1_n_1_0_0_1_2_11.start (ix2 r (0 : Fin 1)) idx 0 = 0 := by
      unfold GatherDims.start; rw [dif_neg (by decide)]
    have hb : gather_S8192x1000_S8192x1x1_S8192x1_n_1_0_0_1_2_11.batchCoord (ix2 r (0 : Fin 1)) 0 = r.val := by
      unfold GatherDims.batchCoord; rw [dif_pos (by decide)]; rfl
    have ho : gather_S8192x1000_S8192x1x1_S8192x1_n_1_0_0_1_2_11.offCoord (ix2 r (0 : Fin 1)) 0 = 0 := GatherDims.offCoord_eq_zero _ _ _ (by decide)
    rw [hs, hb, ho]; omega
  | ⟨1, _⟩ =>
    show gather_S8192x1000_S8192x1x1_S8192x1_n_1_0_0_1_2_11.start (ix2 r (0 : Fin 1)) idx 1 + gather_S8192x1000_S8192x1x1_S8192x1_n_1_0_0_1_2_11.batchCoord (ix2 r (0 : Fin 1)) 1 + gather_S8192x1000_S8192x1x1_S8192x1_n_1_0_0_1_2_11.offCoord (ix2 r (0 : Fin 1)) 1
      = (CEB.cls w).val
    have hb : gather_S8192x1000_S8192x1x1_S8192x1_n_1_0_0_1_2_11.batchCoord (ix2 r (0 : Fin 1)) 1 = 0 := GatherDims.batchCoord_eq_zero _ _ _ (by decide)
    have ho : gather_S8192x1000_S8192x1x1_S8192x1_n_1_0_0_1_2_11.offCoord (ix2 r (0 : Fin 1)) 1 = 0 := GatherDims.offCoord_eq_zero _ _ _ (by decide)
    rw [hb, ho]
    unfold GatherDims.start
    rw [dif_pos (show (1 : Fin 2) ∈ gather_S8192x1000_S8192x1x1_S8192x1_n_1_0_0_1_2_11.startIndexMap from List.mem_singleton.mpr rfl)]
    have hsi : gather_S8192x1000_S8192x1x1_S8192x1_n_1_0_0_1_2_11.siIdx (ix2 r (0 : Fin 1)) ⟨List.idxOf (1 : Fin 2) gather_S8192x1000_S8192x1x1_S8192x1_n_1_0_0_1_2_11.startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi, hidx]
    exact clamp_eq_cls hw

/-! ## The label embeddings -/

/-- The selected embedding columns at (hidden coordinate k, row r): the range test passed, so the gather is read. -/
private theorem taken_apply (yw : FVec Ideal S2048x1000 .f32) (T : IVec S8192 32)
    (hT : ∀ r : Fin 8192, (T (ix1 r)).toNat < 1000) (k : Fin 2048) (r : Fin 8192) :
    taken (F := Ideal) yw T (ix2 k r) = yw (ix2 k (CEB.cls (T (ix1 r)))) := by
  unfold taken
  rw [select_apply, broadcastInDim_apply _ _ _ (ix2 k r) (ix1 r) (fun a => match a with | ⟨0, _⟩ => rfl),
    tok_apply T hT r, select_one]
  exact gather_cols_apply yw (tidx T) k r _ (tidx_apply T r 0 (hT r)) (hT r)

/-- The label embedding at (row r, hidden coordinate k): the label's column of the table at k, plus the bias at k. -/
private theorem yemb_apply (yw : FVec Ideal S2048x1000 .f32) (yb : FVec Ideal S2048 .f32) (T : IVec S8192 32)
    (hT : ∀ r : Fin 8192, (T (ix1 r)).toNat < 1000) (r : Fin 8192) (k : Fin 2048) :
    yemb (F := Ideal) yw yb T (ix2 r k) = yw (ix2 k (CEB.cls (T (ix1 r)))) + yb (ix1 k) := by
  unfold yemb
  rw [addf_apply, transpose_ix2_apply, taken_apply yw T hT k r,
    broadcastInDim_apply _ _ _ (ix2 r k) (ix2 (0 : Fin 1) k) (fun a => match a with | ⟨0, _⟩ => rfl | ⟨1, _⟩ => rfl),
    broadcastInDim_apply _ _ _ (ix2 (0 : Fin 1) k) (ix1 k) (fun a => match a with | ⟨0, _⟩ => rfl)]

/-! ## Half the squared row norm -/

/-- Half the squared norm of row r of a matrix, plus the density's constant: the row sum is the sum over the 2048 hidden
    coordinates, from the initial value zero. -/
private theorem halfSq_apply (d : FVec Ideal S8192x2048 .f32) (r : Fin 8192) :
    halfSq (F := Ideal) d (ix1 r) = CEB.half * (∑ k : Fin 2048, d (ix2 r k) * d (ix2 r k)) + CEB.cst := by
  have hred : S8192x2048.Reduces [1] S8192 := by decide
  have hsum : Host.reduceAdd (F := Ideal) (mulf d d) (constant (F := Ideal) S_ .f32 0x00000000#32)
      reducesTo_S8192x2048_S8192_d1 h_S_ (ix1 r) = ∑ k : Fin 2048, d (ix2 r k) * d (ix2 r k) := by
    refine (Ideal.hostReduceAdd_single reducesTo_S8192x2048_S8192_d1 hred (mulf d d) _ (ix1 r)).trans ?_
    rw [show (constant (F := Ideal) S_ .f32 0x00000000#32) (Shape.Idx.first h_S_) = (0 : EReal) from Ideal.ofBits_zero_f32,
      zero_add]
    refine Finset.sum_congr rfl fun k _ => ?_
    have hl : hred.lift (ix1 r) k = ix2 r k := by
      funext c; refine Fin.ext ?_
      match c with
      | ⟨0, _⟩ => rfl
      | ⟨1, _⟩ => rfl
    rw [hl]; rfl
  unfold halfSq
  rw [addf_apply, mulf_apply, hsum]
  rfl

/-! ## The label's log-probability -/

/-- A column of the labels reads the label of its row. -/
private theorem col_apply (T : IVec S8192 32) (r : Fin 8192) (c : Fin 1) :
    broadcastInDim S8192x1 ![0] bcast_S8192_S8192x1_0 T (ix2 r c) = T (ix1 r) :=
  broadcastInDim_apply _ _ _ (ix2 r c) (ix1 r) (fun a => match a with | ⟨0, _⟩ => rfl)

/-- The select, the range test and the gather of the label's log-probability, over any array of start indices that reads
    the row's label (a class index) at every entry of the row, any arrays reading 0 and 999, and any fill. -/
private theorem picked_core (lg : FVec Ideal S8192x1000 .f32) (t5 Z N : IVec S8192x1x1 32) (fill : FVec Ideal S8192x1 .f32)
    (hZ : ∀ i, Z i = 0#32) (hN : ∀ i, N i = 999#32) (w : Fin 8192 → BitVec 32) (hw : ∀ a, (w a).toNat < 1000)
    (h5 : ∀ (a : Fin 8192) (b c : Fin 1), t5 (ix3 a b c) = w a) (r : Fin 8192) :
    select (Host.reduce IntOp.andi (andi (cmpi .sge t5 Z) (cmpi .sle t5 N)) (constantI S_ 1 1#1)
        reducesTo_S8192x1x1_S8192x1_d2 h_S_) (Host.gather gather_S8192x1000_S8192x1x1_S8192x1_n_1_0_0_1_2_11 lg t5) fill (ix2 r (0 : Fin 1))
      = lg (ix2 r (CEB.cls (w r))) := by
  have hok : Host.reduce IntOp.andi (andi (cmpi .sge t5 Z) (cmpi .sle t5 N)) (constantI S_ 1 1#1)
      reducesTo_S8192x1x1_S8192x1_d2 h_S_ (ix2 r (0 : Fin 1)) = 1#1 := by
    refine reduce_andi_ones _ _ _ _ rfl (fun i => ?_) _
    obtain ⟨a, b, c, rfl⟩ : ∃ (a : Fin 8192) (b c : Fin 1), i = ix3 a b c := ⟨i 0, i 1, i 2, eq_ix3 i⟩
    show IntOp.andi (IntOp.cmpi .sge (t5 (ix3 a b c)) (Z (ix3 a b c))) (IntOp.cmpi .sle (t5 (ix3 a b c)) (N (ix3 a b c))) = 1#1
    rw [h5, hZ, hN, sge_zero_eq (hw a), sle_999_eq (hw a)]
    rfl
  rw [select_apply, hok, select_one]
  exact gather_label_apply lg t5 r _ (h5 r 0 0) (hw r)

/-- The label's log-probability at (row r, 0) is the matrix of log-probabilities at (r, label of r). -/
private theorem picked_apply (lg : FVec Ideal S8192x1000 .f32) (T : IVec S8192 32)
    (hT : ∀ r : Fin 8192, (T (ix1 r)).toNat < 1000) (r : Fin 8192) :
    picked (F := Ideal) lg T (ix2 r (0 : Fin 1)) = lg (ix2 r (CEB.cls (T (ix1 r)))) := by
  unfold picked
  dsimp only
  refine picked_core lg _ _ _ _ (fun _ => rfl) (fun _ => rfl) (fun a => T (ix1 a)) hT (fun a b c => ?_) r
  refine (shapeCast_apply _ _ (ix3 a b c) (ix2 a (0 : Fin 1)) ?_).trans ?_
  · rw [Shape.rowMajor_val_two, Shape.rowMajor_val_three]
    show a.val * 1 + 0 = (a.val * 1 + b.val) * 1 + c.val
    have := b.isLt; have := c.isLt; omega
  · rw [select_apply]
    show Scalar.select (IntOp.cmpi .slt (broadcastInDim S8192x1 ![0] bcast_S8192_S8192x1_0 T (ix2 a (0 : Fin 1))) 0#32) _
      (broadcastInDim S8192x1 ![0] bcast_S8192_S8192x1_0 T (ix2 a (0 : Fin 1))) = _
    rw [col_apply, slt_zero_eq (hT a), select_zero]

/-! ## The row terms -/

/-- Row r's term is the specification's: the first difference matrix is the sample minus the label embedding, the
    second is (f + e) − f, which is e because every feature is a real; the label's log-probability is the first
    result's entry at (r, label of r), negated. -/
private theorem rowTerms_apply (f e : FVec Ideal S8192x2048 .f32) (yw : FVec Ideal S2048x1000 .f32) (yb : FVec Ideal S2048 .f32)
    (cw : FVec Ideal S1000x2048 .f32) (cb : FVec Ideal S1000 .f32) (T : IVec S8192 32)
    (hf : ∀ i, ∃ x : ℝ, f i = (x : EReal)) (hT : ∀ r : Fin 8192, (T (ix1 r)).toNat < 1000) (r : Fin 8192) :
    rowTerms (F := Ideal) f e yw yb cw cb T (ix1 r) = CEB.rowTerm f e yw yb cw cb T r := by
  have h1 : ∀ k : Fin 2048, subf (zsum (F := Ideal) f e) (yemb (F := Ideal) yw yb T) (ix2 r k)
      = (f (ix2 r k) + e (ix2 r k)) - (yw (ix2 k (CEB.col T r)) + yb (ix1 k)) := fun k => by
    rw [subf_apply, yemb_apply yw yb T hT r k]; rfl
  have h2 : ∀ k : Fin 2048, subf (zsum (F := Ideal) f e) f (ix2 r k) = e (ix2 r k) := fun k => by
    obtain ⟨x, hx⟩ := hf (ix2 r k)
    show (f (ix2 r k) + e (ix2 r k)) - f (ix2 r k) = e (ix2 r k)
    rw [hx]; exact EReal.add_sub_cancel_left
  have hp : Host.negf (shapeCast S8192 (picked (F := Ideal) (outLogits (F := Ideal) f e cw cb) T) shapeCasts_S8192x1_S8192) (ix1 r)
      = -(CEB.logit (CEB.zrow f e r) (CEB.Wc cw) (CEB.bc cb) (CEB.col T r)) := by
    show -(shapeCast S8192 (picked (F := Ideal) (outLogits (F := Ideal) f e cw cb) T) shapeCasts_S8192x1_S8192 (ix1 r)) = _
    rw [shapeCast_apply _ _ (ix1 r) (ix2 r (0 : Fin 1)) (by
        rw [Shape.rowMajor_val_two, Shape.rowMajor_val_one]
        show r.val * 1 + 0 = r.val
        omega),
      picked_apply _ T hT r, outLogits_eq]
    rfl
  unfold rowTerms
  rw [addf_apply, mulf_apply, subf_apply, halfSq_apply, halfSq_apply, hp]
  simp only [h1, h2]
  rfl

/-! ## The mean over the rows -/

/-- A rank-one index set of extent 8192 is its coordinate's range. -/
private def rowEquiv : S8192.Idx ≃ Fin 8192 where
  toFun i := i 0
  invFun := ix1
  left_inv i := (eq_ix1 i).symm
  right_inv _ := rfl

/-- The reference's second result is the specification's loss, for finite features and labels that are class indices. -/
theorem outLoss_eq (f e : FVec Ideal S8192x2048 .f32) (yw : FVec Ideal S2048x1000 .f32) (yb : FVec Ideal S2048 .f32)
    (cw : FVec Ideal S1000x2048 .f32) (cb : FVec Ideal S1000 .f32) (T : IVec S8192 32)
    (hf : ∀ i, ∃ x : ℝ, f i = (x : EReal)) (hT : ∀ r : Fin 8192, (T (ix1 r)).toNat < 1000) :
    outLoss (F := Ideal) f e yw yb cw cb T = fun _ => CEB.loss f e yw yb cw cb T := by
  funext j
  unfold outLoss
  show Ideal.div (Ideal.hostReduceAdd reducesTo_S8192_S_d0 (rowTerms (F := Ideal) f e yw yb cw cb T)
      (Ideal.ofBits .f32 0x00000000#32) j) (Ideal.ofBits .f32 0x46000000#32) = _
  rw [Ideal.hostReduceAdd_total reducesTo_S8192_S_d0 (fun b => b.elim0), Ideal.ofBits_zero_f32, zero_add]
  unfold CEB.loss
  refine congrArg (fun s => Ideal.div s CEB.nB) ?_
  refine Fintype.sum_equiv rowEquiv _ _ fun i => ?_
  rw [eq_ix1 i]
  exact rowTerms_apply f e yw yb cw cb T hf hT _

end Cert.ReferenceIdeal.RefRead

end
-- ==== Proof.PreDecode.lean ====
/-
  What the precondition says, decoded: every feature is a real number, and every label word is a class index.
-/
import proofs.«402298_j34050500722818_2_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal.Laws

noncomputable section

open Idealize.ShloMosaic Idealize.ShloMosaic.ValueIdx

namespace Cert.PreDecode

open Cert.Pre_finite_inputs Cert.Pre_finite_inputs.Gen

private instance scalarIdxSubsingleton : Subsingleton S_.Idx := ⟨fun a b => funext fun d => d.elim0⟩

/-- The word 0x7F800000 is +∞: sign clear, exponent field all ones, fraction zero. -/
private theorem ofBits_inf : Ideal.ofBits .f32 0x7F800000#32 = (⊤ : EReal) := by
  simp [Ideal.ofBits, Ideal.ieee]

/-- An extended real whose magnitude max x (−x) lies strictly below +∞ is neither infinity, so it is a real number. -/
private theorem real_of_abs_lt_top (x : EReal) (hx : max x (-x) < ⊤) : ∃ r : ℝ, x = (r : EReal) := by
  induction x using EReal.rec with
  | bot => simp at hx
  | coe r => exact ⟨r, rfl⟩
  | top => simp at hx

/-- The printed test |x| < +∞ coming out 1 says that x is a real number. -/
private theorem real_of_test (x : EReal)
    (hx : Ideal.cmp .olt (max x (-x)) (Ideal.ofBits .f32 0x7F800000#32) = 1#1) : ∃ r : ℝ, x = (r : EReal) := by
  rw [ofBits_inf] at hx
  have hb : BitVec.ofBool (decide (max x (-x) < ⊤)) = 1#1 := hx
  rw [StableHlo.Predicate.ofBool_eq_one_iff, decide_eq_true_eq] at hb
  exact real_of_abs_lt_top x hb

/-- A 32-bit word that is ≥ 0 and < 1000 as a signed number is below 1000 as an unsigned one. -/
private theorem toNat_lt_of_range (w : BitVec 32) (h0 : IntOp.cmpi .sge w 0#32 = 1#1)
    (h1 : IntOp.cmpi .slt w 1000#32 = 1#1) : w.toNat < 1000 := by
  have z : (0#32 : BitVec 32).toInt = 0 := by decide
  have k : (1000#32 : BitVec 32).toInt = 1000 := by decide
  have h0' : BitVec.ofBool ((0#32 : BitVec 32).sle w) = 1#1 := h0
  have h1' : BitVec.ofBool (w.slt 1000#32) = 1#1 := h1
  rw [StableHlo.Predicate.ofBool_eq_one_iff] at h0' h1'
  simp only [BitVec.slt, BitVec.sle, decide_eq_true_eq, z, k] at h0' h1'
  have hw := w.isLt
  rw [BitVec.toInt_eq_toNat_cond] at h0' h1'
  by_cases c : 2 * w.toNat < 2 ^ 32
  · rw [if_pos c] at h0' h1'; omega
  · rw [if_neg c] at h0' h1'; omega

/-- If the precondition's predicate is all ones then the features are finite and the labels lie in [0, 1000). -/
theorem of_pre (a0 : FVec Ideal S8192x2048 .f32) (a1 : FVec Ideal S2048x1000 .f32) (a2 : FVec Ideal S2048 .f32)
    (a3 : FVec Ideal S1000x2048 .f32) (a4 : FVec Ideal S1000 .f32) (a5 : FVec Ideal S8192x2048 .f32) (a6 : IVec S8192 32)
    (h : Cert.Pre_finite_inputs.fn (F := Ideal) a0 a1 a2 a3 a4 a5 a6 = fun _ => 1#1) :
    (∀ i, ∃ x : ℝ, a0 i = (x : EReal)) ∧ (∀ r : Fin 8192, (a6 (ix1 r)).toNat < 1000) := by
  have h0 := congrFun h ValueIdx.ix0
  dsimp only [fn, fn_part1, fn_part2] at h0
  -- the predicate is a left-nested conjunction of eight tests; keep the first, the seventh and the eighth
  obtain ⟨h17, h8⟩ := IntOp.andi_eq_one.1 h0
  obtain ⟨h16, h7⟩ := IntOp.andi_eq_one.1 h17
  obtain ⟨h15, -⟩ := IntOp.andi_eq_one.1 h16
  obtain ⟨h14, -⟩ := IntOp.andi_eq_one.1 h15
  obtain ⟨h13, -⟩ := IntOp.andi_eq_one.1 h14
  obtain ⟨h12, -⟩ := IntOp.andi_eq_one.1 h13
  obtain ⟨h1, -⟩ := IntOp.andi_eq_one.1 h12
  refine ⟨fun i => ?_, fun r => ?_⟩
  · -- every entry of the features passes |x| < +∞
    exact real_of_test (a0 i) (Host.reduce_andi_all _ _ _ _ _ h1 i)
  · -- label r passes both 0 ≤ w and w < 1000
    exact toNat_lt_of_range (a6 (ix1 r)) (Host.reduce_andi_all _ _ _ _ _ h7 (ix1 r))
      (Host.reduce_andi_all _ _ _ _ _ h8 (ix1 r))

end Cert.PreDecode

end
-- ==== Proof.KPieces.lean ====
/-
  What each control case of the kernel body leaves behind, as values.

  The body has three cases over the 32 grid points: the first point (the accumulator is reset before use), the middle
  points, and the last point (the accumulator is also divided by the batch size into the loss tile).  In every case the
  block of clipped log-probabilities written is one function of the point's input blocks, and the accumulator
  afterwards is the accumulator before (zero at the first point) plus the block's partial sum of row terms.
-/
import proofs.«402298_j34050500722818_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KVal

open Cert.KernelIdeal Cert.KernelIdeal.Gen

variable {F : FTy → Type} [FloatOps F]

/-- The block of clipped log-probabilities a point computes from its feature, noise, classifier-weight and
    classifier-bias blocks. -/
def logitsBlk (x0 x1 : Vec F S256x2048 .f32) (x5 : Vec F S2048x1000 .bf16) (x6 : Vec F S1x1000 .f32) : FVec F S256x1000 .f32 :=
  k0_pay7 (k0_pay4 x0 x1) x5 x6

/-- The accumulator after a point: the accumulator before it plus the point's partial sum of row terms (broadcast over
    the tile). -/
def accNext (x0 : Vec F S256x2048 .f32) (x1 : Vec F S256x2048 .f32) (x2 : Vec F S256x1 .i32) (x3 : Vec F S1000x2048 .bf16) (x4 : Vec F S1x2048 .f32) (x5 : Vec F S2048x1000 .bf16) (x6 : Vec F S1x1000 .f32) (acc : Vec F S8x128 .f32) : FVec F S8x128 .f32 :=
  k0_pay8 (k0_pay4 x0 x1) (k0_pay5 x2) (k0_pay6 x0 x1 x2 x3 x4) x5 x6 acc

/-- The zero tile the first point resets the accumulator to. -/
def accZero : FVec F S8x128 .f32 := k0_pay2 (F := F)

/-- The loss tile: the accumulator divided by the batch size. -/
def lossTile (acc : Vec F S8x128 .f32) : FVec F S8x128 .f32 := k0_pay1 acc

/-- The offset of a whole rank-two block: the literal zero pair is the constant zero function. -/
private theorem hz : (![0, 0] : Fin 2 → Nat) = fun _ => 0 := funext fun a => by fin_cases a <;> rfl

/-- First point: the log-probability block. -/
theorem out7_A (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x1 .i32) (harg3 : arg3.IsWhole) (arg4 : Memref sig .tc .vmem S1000x2048 .bf16) (harg4 : arg4.IsWhole) (arg5 : Memref sig .tc .vmem S1x2048 .f32) (harg5 : arg5.IsWhole) (arg6 : Memref sig .tc .vmem S2048x1000 .bf16) (harg6 : arg6.IsWhole) (arg7 : Memref sig .tc .vmem S1x1000 .f32) (harg7 : arg7.IsWhole) (arg8 : Memref sig .tc .vmem S256x1000 .f32) (harg8 : arg8.IsWhole) (arg9 : Memref sig .tc .vmem S8x128 .f32) (harg9 : arg9.IsWhole) (arg10 : Memref sig .tc .vmem S8x128 .f32) (harg10 : arg10.IsWhole) (hc0 : cond0_0 i) (hc1 : ¬cond0_1 i) (x0 : Vec F S256x2048 .f32) (x1 : Vec F S256x2048 .f32) (x2 : Vec F S256x1 .i32) (x3 : Vec F S1000x2048 .bf16) (x4 : Vec F S1x2048 .f32) (x5 : Vec F S2048x1000 .bf16) (x6 : Vec F S1x1000 .f32) :
    out0_A_7 c i arg1 harg1 arg2 harg2 arg3 harg3 arg4 harg4 arg5 harg5 arg6 harg6 arg7 harg7 arg8 harg8 arg9 harg9 arg10 harg10 hc0 hc1 x0 x1 x2 x3 x4 x5 x6 = logitsBlk x0 x1 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_unit_zero hz]
  unfold logitsBlk
  simp only [View.readAt_eq_ld, harg1.read_unread, harg2.read_unread, harg3.read_unread, harg4.read_unread, harg5.read_unread, harg6.read_unread, harg7.read_unread, harg10.read_unread, View.ld_unit_zero (S := S256x2048) hz, View.ld_unit_zero (S := S256x1) hz, View.ld_unit_zero (S := S1000x2048) hz, View.ld_unit_zero (S := S1x2048) hz, View.ld_unit_zero (S := S2048x1000) hz, View.ld_unit_zero (S := S1x1000) hz, View.ld_unit_zero (S := S8x128) hz, View.readCov_unit_zero (S := S8x128) _ hz, shapeCast_self]

/-- Middle points: the log-probability block. -/
theorem out7_B (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x1 .i32) (harg3 : arg3.IsWhole) (arg4 : Memref sig .tc .vmem S1000x2048 .bf16) (harg4 : arg4.IsWhole) (arg5 : Memref sig .tc .vmem S1x2048 .f32) (harg5 : arg5.IsWhole) (arg6 : Memref sig .tc .vmem S2048x1000 .bf16) (harg6 : arg6.IsWhole) (arg7 : Memref sig .tc .vmem S1x1000 .f32) (harg7 : arg7.IsWhole) (arg8 : Memref sig .tc .vmem S256x1000 .f32) (harg8 : arg8.IsWhole) (arg9 : Memref sig .tc .vmem S8x128 .f32) (harg9 : arg9.IsWhole) (arg10 : Memref sig .tc .vmem S8x128 .f32) (harg10 : arg10.IsWhole) (hc0 : ¬cond0_0 i) (hc1 : ¬cond0_1 i) (x0 : Vec F S256x2048 .f32) (x1 : Vec F S256x2048 .f32) (x2 : Vec F S256x1 .i32) (x3 : Vec F S1000x2048 .bf16) (x4 : Vec F S1x2048 .f32) (x5 : Vec F S2048x1000 .bf16) (x6 : Vec F S1x1000 .f32) (xs0 : Vec F S8x128 .f32) :
    out0_B_7 c i arg1 harg1 arg2 harg2 arg3 harg3 arg4 harg4 arg5 harg5 arg6 harg6 arg7 harg7 arg8 harg8 arg9 harg9 arg10 harg10 hc0 hc1 x0 x1 x2 x3 x4 x5 x6 xs0 = logitsBlk x0 x1 x5 x6 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz]
  unfold logitsBlk
  simp only [View.readAt_eq_ld, harg1.read_unread, harg2.read_unread, harg3.read_unread, harg4.read_unread, harg5.read_unread, harg6.read_unread, harg7.read_unread, harg10.read_unread, View.ld_unit_zero (S := S256x2048) hz, View.ld_unit_zero (S := S256x1) hz, View.ld_unit_zero (S := S1000x2048) hz, View.ld_unit_zero (S := S1x2048) hz, View.ld_unit_zero (S := S2048x1000) hz, View.ld_unit_zero (S := S1x1000) hz, View.ld_unit_zero (S := S8x128) hz, View.readCov_unit_zero (S := S8x128) _ hz, shapeCast_self]

/-- Last point: the log-probability block. -/
theorem out7_C (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x1 .i32) (harg3 : arg3.IsWhole) (arg4 : Memref sig .tc .vmem S1000x2048 .bf16) (harg4 : arg4.IsWhole) (arg5 : Memref sig .tc .vmem S1x2048 .f32) (harg5 : arg5.IsWhole) (arg6 : Memref sig .tc .vmem S2048x1000 .bf16) (harg6 : arg6.IsWhole) (arg7 : Memref sig .tc .vmem S1x1000 .f32) (harg7 : arg7.IsWhole) (arg8 : Memref sig .tc .vmem S256x1000 .f32) (harg8 : arg8.IsWhole) (arg9 : Memref sig .tc .vmem S8x128 .f32) (harg9 : arg9.IsWhole) (arg10 : Memref sig .tc .vmem S8x128 .f32) (harg10 : arg10.IsWhole) (hc0 : ¬cond0_0 i) (hc1 : cond0_1 i) (x0 : Vec F S256x2048 .f32) (x1 : Vec F S256x2048 .f32) (x2 : Vec F S256x1 .i32) (x3 : Vec F S1000x2048 .bf16) (x4 : Vec F S1x2048 .f32) (x5 : Vec F S2048x1000 .bf16) (x6 : Vec F S1x1000 .f32) (xs0 : Vec F S8x128 .f32) :
    out0_C_7 c i arg1 harg1 arg2 harg2 arg3 harg3 arg4 harg4 arg5 harg5 arg6 harg6 arg7 harg7 arg8 harg8 arg9 harg9 arg10 harg10 hc0 hc1 x0 x1 x2 x3 x4 x5 x6 xs0 = logitsBlk x0 x1 x5 x6 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  unfold logitsBlk
  simp only [View.readAt_eq_ld, harg1.read_unread, harg2.read_unread, harg3.read_unread, harg4.read_unread, harg5.read_unread, harg6.read_unread, harg7.read_unread, harg10.read_unread, View.ld_unit_zero (S := S256x2048) hz, View.ld_unit_zero (S := S256x1) hz, View.ld_unit_zero (S := S1000x2048) hz, View.ld_unit_zero (S := S1x2048) hz, View.ld_unit_zero (S := S2048x1000) hz, View.ld_unit_zero (S := S1x1000) hz, View.ld_unit_zero (S := S8x128) hz, View.readCov_unit_zero (S := S8x128) _ hz, shapeCast_self]

/-- First point: the accumulator ends at zero plus the block's partial sum (the reset is read back before the update). -/
theorem sout_A (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x1 .i32) (harg3 : arg3.IsWhole) (arg4 : Memref sig .tc .vmem S1000x2048 .bf16) (harg4 : arg4.IsWhole) (arg5 : Memref sig .tc .vmem S1x2048 .f32) (harg5 : arg5.IsWhole) (arg6 : Memref sig .tc .vmem S2048x1000 .bf16) (harg6 : arg6.IsWhole) (arg7 : Memref sig .tc .vmem S1x1000 .f32) (harg7 : arg7.IsWhole) (arg8 : Memref sig .tc .vmem S256x1000 .f32) (harg8 : arg8.IsWhole) (arg9 : Memref sig .tc .vmem S8x128 .f32) (harg9 : arg9.IsWhole) (arg10 : Memref sig .tc .vmem S8x128 .f32) (harg10 : arg10.IsWhole) (hc0 : cond0_0 i) (hc1 : ¬cond0_1 i) (x0 : Vec F S256x2048 .f32) (x1 : Vec F S256x2048 .f32) (x2 : Vec F S256x1 .i32) (x3 : Vec F S1000x2048 .bf16) (x4 : Vec F S1x2048 .f32) (x5 : Vec F S2048x1000 .bf16) (x6 : Vec F S1x1000 .f32) :
    sout0_A_0 c i arg1 harg1 arg2 harg2 arg3 harg3 arg4 harg4 arg5 harg5 arg6 harg6 arg7 harg7 arg8 harg8 arg9 harg9 arg10 harg10 hc0 hc1 x0 x1 x2 x3 x4 x5 x6 = accNext x0 x1 x2 x3 x4 x5 x6 (accZero (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S8x128) hz, View.readCov_unit_zero (S := S8x128) _ hz]
  unfold accNext accZero
  simp only [View.readAt_eq_ld, harg1.read_unread, harg2.read_unread, harg3.read_unread, harg4.read_unread, harg5.read_unread, harg6.read_unread, harg7.read_unread, harg10.read_unread, View.ld_unit_zero (S := S256x2048) hz, View.ld_unit_zero (S := S256x1) hz, View.ld_unit_zero (S := S1000x2048) hz, View.ld_unit_zero (S := S1x2048) hz, View.ld_unit_zero (S := S2048x1000) hz, View.ld_unit_zero (S := S1x1000) hz, View.ld_unit_zero (S := S8x128) hz, View.readCov_unit_zero (S := S8x128) _ hz, shapeCast_self]

/-- Middle points: the accumulator the point before left, plus the block's partial sum. -/
theorem sout_B (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x1 .i32) (harg3 : arg3.IsWhole) (arg4 : Memref sig .tc .vmem S1000x2048 .bf16) (harg4 : arg4.IsWhole) (arg5 : Memref sig .tc .vmem S1x2048 .f32) (harg5 : arg5.IsWhole) (arg6 : Memref sig .tc .vmem S2048x1000 .bf16) (harg6 : arg6.IsWhole) (arg7 : Memref sig .tc .vmem S1x1000 .f32) (harg7 : arg7.IsWhole) (arg8 : Memref sig .tc .vmem S256x1000 .f32) (harg8 : arg8.IsWhole) (arg9 : Memref sig .tc .vmem S8x128 .f32) (harg9 : arg9.IsWhole) (arg10 : Memref sig .tc .vmem S8x128 .f32) (harg10 : arg10.IsWhole) (hc0 : ¬cond0_0 i) (hc1 : ¬cond0_1 i) (x0 : Vec F S256x2048 .f32) (x1 : Vec F S256x2048 .f32) (x2 : Vec F S256x1 .i32) (x3 : Vec F S1000x2048 .bf16) (x4 : Vec F S1x2048 .f32) (x5 : Vec F S2048x1000 .bf16) (x6 : Vec F S1x1000 .f32) (xs0 : Vec F S8x128 .f32) :
    sout0_B_0 c i arg1 harg1 arg2 harg2 arg3 harg3 arg4 harg4 arg5 harg5 arg6 harg6 arg7 harg7 arg8 harg8 arg9 harg9 arg10 harg10 hc0 hc1 x0 x1 x2 x3 x4 x5 x6 xs0 = accNext x0 x1 x2 x3 x4 x5 x6 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz]
  unfold accNext
  simp only [View.readAt_eq_ld, harg1.read_unread, harg2.read_unread, harg3.read_unread, harg4.read_unread, harg5.read_unread, harg6.read_unread, harg7.read_unread, harg10.read_unread, View.ld_unit_zero (S := S256x2048) hz, View.ld_unit_zero (S := S256x1) hz, View.ld_unit_zero (S := S1000x2048) hz, View.ld_unit_zero (S := S1x2048) hz, View.ld_unit_zero (S := S2048x1000) hz, View.ld_unit_zero (S := S1x1000) hz, View.ld_unit_zero (S := S8x128) hz, View.readCov_unit_zero (S := S8x128) _ hz, shapeCast_self]

/-- Last point: the same update of the accumulator. -/
theorem sout_C (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x1 .i32) (harg3 : arg3.IsWhole) (arg4 : Memref sig .tc .vmem S1000x2048 .bf16) (harg4 : arg4.IsWhole) (arg5 : Memref sig .tc .vmem S1x2048 .f32) (harg5 : arg5.IsWhole) (arg6 : Memref sig .tc .vmem S2048x1000 .bf16) (harg6 : arg6.IsWhole) (arg7 : Memref sig .tc .vmem S1x1000 .f32) (harg7 : arg7.IsWhole) (arg8 : Memref sig .tc .vmem S256x1000 .f32) (harg8 : arg8.IsWhole) (arg9 : Memref sig .tc .vmem S8x128 .f32) (harg9 : arg9.IsWhole) (arg10 : Memref sig .tc .vmem S8x128 .f32) (harg10 : arg10.IsWhole) (hc0 : ¬cond0_0 i) (hc1 : cond0_1 i) (x0 : Vec F S256x2048 .f32) (x1 : Vec F S256x2048 .f32) (x2 : Vec F S256x1 .i32) (x3 : Vec F S1000x2048 .bf16) (x4 : Vec F S1x2048 .f32) (x5 : Vec F S2048x1000 .bf16) (x6 : Vec F S1x1000 .f32) (xs0 : Vec F S8x128 .f32) :
    sout0_C_0 c i arg1 harg1 arg2 harg2 arg3 harg3 arg4 harg4 arg5 harg5 arg6 harg6 arg7 harg7 arg8 harg8 arg9 harg9 arg10 harg10 hc0 hc1 x0 x1 x2 x3 x4 x5 x6 xs0 = accNext x0 x1 x2 x3 x4 x5 x6 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  unfold accNext
  simp only [View.readAt_eq_ld, harg1.read_unread, harg2.read_unread, harg3.read_unread, harg4.read_unread, harg5.read_unread, harg6.read_unread, harg7.read_unread, harg10.read_unread, View.ld_unit_zero (S := S256x2048) hz, View.ld_unit_zero (S := S256x1) hz, View.ld_unit_zero (S := S1000x2048) hz, View.ld_unit_zero (S := S1x2048) hz, View.ld_unit_zero (S := S2048x1000) hz, View.ld_unit_zero (S := S1x1000) hz, View.ld_unit_zero (S := S8x128) hz, View.readCov_unit_zero (S := S8x128) _ hz, shapeCast_self]

/-- Last point: the loss tile is the updated accumulator divided by the batch size. -/
theorem out8_C (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x1 .i32) (harg3 : arg3.IsWhole) (arg4 : Memref sig .tc .vmem S1000x2048 .bf16) (harg4 : arg4.IsWhole) (arg5 : Memref sig .tc .vmem S1x2048 .f32) (harg5 : arg5.IsWhole) (arg6 : Memref sig .tc .vmem S2048x1000 .bf16) (harg6 : arg6.IsWhole) (arg7 : Memref sig .tc .vmem S1x1000 .f32) (harg7 : arg7.IsWhole) (arg8 : Memref sig .tc .vmem S256x1000 .f32) (harg8 : arg8.IsWhole) (arg9 : Memref sig .tc .vmem S8x128 .f32) (harg9 : arg9.IsWhole) (arg10 : Memref sig .tc .vmem S8x128 .f32) (harg10 : arg10.IsWhole) (hc0 : ¬cond0_0 i) (hc1 : cond0_1 i) (x0 : Vec F S256x2048 .f32) (x1 : Vec F S256x2048 .f32) (x2 : Vec F S256x1 .i32) (x3 : Vec F S1000x2048 .bf16) (x4 : Vec F S1x2048 .f32) (x5 : Vec F S2048x1000 .bf16) (x6 : Vec F S1x1000 .f32) (xs0 : Vec F S8x128 .f32) :
    out0_C_8 c i arg1 harg1 arg2 harg2 arg3 harg3 arg4 harg4 arg5 harg5 arg6 harg6 arg7 harg7 arg8 harg8 arg9 harg9 arg10 harg10 hc0 hc1 x0 x1 x2 x3 x4 x5 x6 xs0 = lossTile (accNext x0 x1 x2 x3 x4 x5 x6 xs0) := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  unfold lossTile accNext
  simp only [View.readAt_eq_ld, harg1.read_unread, harg2.read_unread, harg3.read_unread, harg4.read_unread, harg5.read_unread, harg6.read_unread, harg7.read_unread, harg10.read_unread, View.ld_unit_zero (S := S256x2048) hz, View.ld_unit_zero (S := S256x1) hz, View.ld_unit_zero (S := S1000x2048) hz, View.ld_unit_zero (S := S1x2048) hz, View.ld_unit_zero (S := S2048x1000) hz, View.ld_unit_zero (S := S1x1000) hz, View.ld_unit_zero (S := S8x128) hz, View.readCov_unit_zero (S := S8x128) _ hz, shapeCast_self]

end Cert.KernelIdeal.KVal

end
-- ==== Proof.KBlockLogits.lean ====
/-
  The body's arithmetic read entry by entry over the extended reals.

  From a point's input blocks: the log-probability block at (p, q) is the clipped log of row p's normalised score of
  class q; the accumulator update adds, at every entry of the tile, the sum over the block's 256 rows of the row loss
  terms; the loss tile divides by the batch size; the reset tile is zero.  The label's one-hot row against the
  embedding matrix picks the label's embedding row, and against the log-probabilities the label's log-probability:
  both need the label word in [0, 1000).
-/
import proofs.«402298_j34050500722818_2_alg».proof.Proof.KPieces
import proofs.«402298_j34050500722818_2_alg».proof.Proof.Spec
import proofs.«402298_j34050500722818_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.KVal

open Cert.KernelIdeal Cert.KernelIdeal.Gen

/-- Row p of the sample block: features plus noise. -/
def zblk (x0 x1 : Vec Ideal S256x2048 .f32) (p : Fin 256) : Fin 2048 → EReal := fun k => x0 (ix2 p k) + x1 (ix2 p k)

/-- A sum over the classes of a 256 × 1000 block, read at row p: the sum over q of the block at (p, q). -/
private theorem rowSum_apply (src : FVec Ideal S256x1000 .f32) (h : S256x1000.Reduces [1] S256)
    (hφ : FKind.Formats .f32) (hacc : (0x00000000#32 : BitVec 32) = FKind.add.neutral .f32 hφ) (p : Fin 256) :
    multiReduction .add [1] S256 src 0x00000000#32 h hφ hacc (ix1 p) = ∑ k : Fin 1000, src (ix2 p k) := by
  refine (Ideal.multiReduction_add_single src 0x00000000#32 h hφ hacc (ix1 p)).trans ?_
  show (∑ k : Fin 1000, src (h.lift (ix1 p) k)) = _
  refine Finset.sum_congr rfl fun k _ => congrArg src (funext fun a => Fin.ext ?_)
  match a with
  | ⟨0, _⟩ => rfl
  | ⟨1, _⟩ => rfl

/-- A length-256 vector cast to a 256 × 1 column reads, at (p, u), the vector at p. -/
private theorem colCast_apply {α : Type} (v : S256.Idx → α) (h : S256.ShapeCasts S256x1) (p : Fin 256) (u : Fin 1) :
    shapeCast S256x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A 256 × 1 column broadcast over 1000 classes reads, at (p, q), the column at (p, 0). -/
private theorem colBcast_apply {α : Type} (v : S256x1.Idx → α) (h : S256x1.Broadcasts S256x1000) (p : Fin 256) (q : Fin 1000) :
    broadcastTo S256x1000 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A block of scores, each divided by its row's sum over the 1000 classes, clipped and passed through the logarithm,
    read at (p, q). -/
private theorem clipLog_apply (S : FVec Ideal S256x1000 .f32) (h1 : S256x1000.Reduces [1] S256) (h2 : FKind.Formats .f32)
    (h3 : (0x00000000#32 : BitVec 32) = FKind.add.neutral .f32 h2) (h4 : S256.ShapeCasts S256x1)
    (h5 : S256x1.Broadcasts S256x1000) (p : Fin 256) (q : Fin 1000) :
    log (minimumf (broadcast S256x1000 (Ideal.ofBits .f32 0x3F7FFFFE#32) : FVec Ideal S256x1000 .f32)
          (maximumf (broadcast S256x1000 (Ideal.ofBits .f32 0x34000000#32) : FVec Ideal S256x1000 .f32)
            (divf S (broadcastTo S256x1000 (shapeCast S256x1 (multiReduction .add [1] S256 S 0x00000000#32 h1 h2 h3) h4) h5))))
        (ix2 p q)
      = Ideal.log (min CEB.hi (max CEB.lo (Ideal.div (S (ix2 p q)) (∑ q' : Fin 1000, S (ix2 p q'))))) := by
  have hD : broadcastTo S256x1000 (shapeCast S256x1 (multiReduction .add [1] S256 S 0x00000000#32 h1 h2 h3) h4) h5 (ix2 p q)
      = ∑ q' : Fin 1000, S (ix2 p q') :=
    (colBcast_apply _ h5 p q).trans ((colCast_apply _ h4 p 0).trans (rowSum_apply S h1 h2 h3 p))
  show Ideal.log (min CEB.hi (max CEB.lo (Ideal.div (S (ix2 p q))
    (broadcastTo S256x1000 (shapeCast S256x1 (multiReduction .add [1] S256 S 0x00000000#32 h1 h2 h3) h4) h5 (ix2 p q))))) = _
  rw [hD]

/-- The score block at (p, q): row p of the sample block against column q of the classifier's weight, plus the bias
    of class q. -/
private theorem scoreBlk_apply (x0 x1 : Vec Ideal S256x2048 .f32) (x5 : Vec Ideal S2048x1000 .bf16)
    (x6 : Vec Ideal S1x1000 .f32) (p : Fin 256) (q : Fin 1000) :
    addf (matmul (φ₂ := .bf16) dot_S256x2048_S2048x1000_S256x1000_1_0_0_1_n_n none (k0_pay4 x0 x1)
            (shapeCast S2048x1000 x5 shapeCasts_S2048x1000_S2048x1000) (constant (F := Ideal) S256x1000 .f32 0x00000000#32))
         (broadcastTo S256x1000 (shapeCast S1x1000 x6 shapeCasts_S1x1000_S1x1000) broadcasts_S1x1000_S256x1000) (ix2 p q)
      = CEB.score (zblk x0 x1 p) (fun k q' => x5 (ix2 k q')) (fun q' => x6 (ix2 (0 : Fin 1) q')) q := by
  rw [addf_apply, shapeCast_self, shapeCast_self, broadcastTo_1b_ab_apply]
  refine congrArg (· + x6 (ix2 (0 : Fin 1) q)) ?_
  exact PlainDot.matmul_zero_apply dot_S256x2048_S2048x1000_S256x1000_1_0_0_1_n_n ⟨rfl, rfl, rfl, rfl, rfl, rfl⟩ none
    (k0_pay4 x0 x1) x5 p q

/-- The log-probability block at row p, class q. -/
theorem logitsBlk_apply (x0 x1 : Vec Ideal S256x2048 .f32) (x5 : Vec Ideal S2048x1000 .bf16) (x6 : Vec Ideal S1x1000 .f32)
    (p : Fin 256) (q : Fin 1000) :
    logitsBlk x0 x1 x5 x6 (ix2 p q)
      = CEB.logit (zblk x0 x1 p) (fun k q' => x5 (ix2 k q')) (fun q' => x6 (ix2 (0 : Fin 1) q')) q := by
  unfold logitsBlk k0_pay7
  refine (clipLog_apply _ _ _ _ _ _ p q).trans ?_
  unfold CEB.logit
  simp only [scoreBlk_apply]

/-- The loss tile at any entry. -/
theorem lossTile_apply (acc : Vec Ideal S8x128 .f32) (y : S8x128.Idx) : lossTile acc y = Ideal.div (acc y) CEB.nB := by
  rfl

/-- The reset tile is zero everywhere. -/
theorem accZero_apply (y : S8x128.Idx) : accZero (F := Ideal) y = 0 := by
  unfold accZero k0_pay2
  rw [shapeCast_self]
  exact Ideal.ofBits_zero_f32

end Cert.KernelIdeal.KVal

end
-- ==== Proof.KBlockAcc.lean ====
/-
  The accumulator update read entry by entry over the extended reals: at every entry of the tile the accumulator
  gains the sum over the block's 256 rows of the row loss terms.  The label's one-hot row against the embedding matrix
  picks the label's embedding row, and against the log-probabilities the label's log-probability: both need the label
  word in [0, 1000).
-/
import proofs.«402298_j34050500722818_2_alg».proof.Proof.KBlockLogits

noncomputable section

open Idealize.ShloMosaic Idealize.ShloMosaic.TcCoe Idealize.ShloMosaic.ValueIdx

namespace Cert.KernelIdeal.KVal

open Cert.KernelIdeal Cert.KernelIdeal.Gen

/-- A label word below 1000 equals the word of a class index exactly when that index is the label's class. -/
private theorem word_eq_iff (w : BitVec 32) (hw : w.toNat < 1000) (q : Fin 1000) :
    w = BitVec.ofNat 32 q.val ↔ q = CEB.cls w := by
  have hq := q.isLt
  constructor
  · intro h
    apply Fin.ext
    show q.val = w.toNat % 1000
    rw [Nat.mod_eq_of_lt hw, h, BitVec.toNat_ofNat]
    omega
  · intro h
    apply BitVec.eq_of_toNat_eq
    rw [BitVec.toNat_ofNat, h]
    show w.toNat = (w.toNat % 1000) % 2 ^ 32
    omega

/-- The comparison bit at (p, q): the label word of row p against the word of the class index q. -/
private theorem bit_apply (x2 : Vec Ideal S256x1 .i32) (p : Fin 256) (q : Fin 1000) :
    k0_pay5 (F := Ideal) x2 (ix2 p q) = IntOp.cmpi .eq (x2 (ix2 p (0 : Fin 1))) (BitVec.ofNat 32 q.val) := by
  unfold k0_pay5
  show IntOp.cmpi .eq (broadcastTo S256x1000 (shapeCast S256x1 x2 shapeCasts_S256x1_S256x1) broadcasts_S256x1_S256x1000 (ix2 p q))
      (iota .tc S256x1000 32 [1] iota_S256x1000_d1_w32 (ix2 p q)) = _
  rw [shapeCast_self, iota_single_apply,
    broadcastTo_apply x2 broadcasts_S256x1_S256x1000 (ix2 p q) (ix2 p (0 : Fin 1))
      (fun a => match a with | ⟨0, _⟩ => rfl | ⟨1, _⟩ => rfl)]

/-- Under the range hypothesis the bit is set exactly at the label's class. -/
private theorem bit_eq_ite (x2 : Vec Ideal S256x1 .i32) (p : Fin 256) (q : Fin 1000)
    (h : (x2 (ix2 p (0 : Fin 1))).toNat < 1000) :
    k0_pay5 (F := Ideal) x2 (ix2 p q) = if q = CEB.cls (x2 (ix2 p (0 : Fin 1))) then 1#1 else 0#1 := by
  rw [bit_apply]
  have e : IntOp.cmpi .eq (x2 (ix2 p (0 : Fin 1))) (BitVec.ofNat 32 q.val)
      = BitVec.ofBool (x2 (ix2 p (0 : Fin 1)) == BitVec.ofNat 32 q.val) := rfl
  rw [e]
  by_cases hq : q = CEB.cls (x2 (ix2 p (0 : Fin 1)))
  · rw [if_pos hq, beq_iff_eq.mpr ((word_eq_iff _ h q).mpr hq)]; rfl
  · rw [if_neg hq, beq_eq_false_iff_ne.mpr (fun hh => hq ((word_eq_iff _ h q).mp hh))]; rfl

/-- The one-hot entry as a number: one at the label's class, zero elsewhere. -/
private theorem onehot_apply (x2 : Vec Ideal S256x1 .i32) (p : Fin 256) (q : Fin 1000)
    (h : (x2 (ix2 p (0 : Fin 1))).toNat < 1000) :
    (truncf .bf16 (sitofp .f32 (extui 32 (k0_pay5 (F := Ideal) x2) natLt_1_32) : FVec Ideal S256x1000 .f32) bitsLt_bf16_f32
        : FVec Ideal S256x1000 .bf16) (ix2 p q)
      = if q = CEB.cls (x2 (ix2 p (0 : Fin 1))) then (1 : EReal) else 0 := by
  rw [truncf_apply, sitofp_apply, extui_apply, bit_eq_ite x2 p q h]
  by_cases hq : q = CEB.cls (x2 (ix2 p (0 : Fin 1)))
  · rw [if_pos hq, if_pos hq]
    show ((((1#1 : BitVec 1).setWidth 32).toInt : ℝ) : EReal) = 1
    have e : ((1#1 : BitVec 1).setWidth 32).toInt = 1 := by decide
    rw [e]; norm_num
  · rw [if_neg hq, if_neg hq]
    show ((((0#1 : BitVec 1).setWidth 32).toInt : ℝ) : EReal) = 0
    have e : ((0#1 : BitVec 1).setWidth 32).toInt = 0 := by decide
    rw [e]; norm_num

/-- A vector of 256 entries viewed as a 256×1 column reads entry p at (p, 0). -/
private theorem colCast_apply {α : Type} (v : S256.Idx → α) (p : Fin 256) :
    shapeCast S256x1 v shapeCasts_S256_S256x1 (ix2 p (0 : Fin 1)) = v (ix1 p) := by
  refine shapeCast_apply v shapeCasts_S256_S256x1 (ix2 p (0 : Fin 1)) (ix1 p) ?_
  rw [Shape.rowMajor_val_one, Shape.rowMajor_val_two]
  show p.val = p.val * 1 + 0
  omega

/-- The sum along the 2048 hidden coordinates, read at row p. -/
private theorem rowSum2048_apply (v : FVec Ideal S256x2048 .f32) (hφ : FKind.Formats .f32)
    (hacc : (0x00000000#32 : BitVec 32) = 0x00000000#32) (p : Fin 256) :
    multiReduction .add [1] S256 v 0x00000000#32 reduces_S256x2048_S256 hφ hacc (ix1 p)
      = ∑ k : Fin 2048, v (ix2 p k) := by
  refine (Ideal.multiReduction_add_single v 0x00000000#32 reduces_S256x2048_S256 hφ hacc (ix1 p)).trans ?_
  show (∑ k : Fin 2048, v (reduces_S256x2048_S256.lift (ix1 p) k)) = _
  refine Finset.sum_congr rfl fun k _ => congrArg v ?_
  funext a
  apply Fin.ext
  match a with
  | ⟨0, _⟩ => rfl
  | ⟨1, _⟩ => rfl

/-- The sum along the 1000 classes, read at row p. -/
private theorem rowSum1000_apply (v : FVec Ideal S256x1000 .f32) (hφ : FKind.Formats .f32)
    (hacc : (0x00000000#32 : BitVec 32) = 0x00000000#32) (p : Fin 256) :
    multiReduction .add [1] S256 v 0x00000000#32 reduces_S256x1000_S256 hφ hacc (ix1 p)
      = ∑ q : Fin 1000, v (ix2 p q) := by
  refine (Ideal.multiReduction_add_single v 0x00000000#32 reduces_S256x1000_S256 hφ hacc (ix1 p)).trans ?_
  show (∑ q : Fin 1000, v (reduces_S256x1000_S256.lift (ix1 p) q)) = _
  refine Finset.sum_congr rfl fun q _ => congrArg v ?_
  funext a
  apply Fin.ext
  match a with
  | ⟨0, _⟩ => rfl
  | ⟨1, _⟩ => rfl

/-- The sum of a 256×1 column over its rows. -/
private theorem colSum_apply (v : FVec Ideal S256x1 .f32) (hφ : FKind.Formats .f32)
    (hacc : (0x00000000#32 : BitVec 32) = 0x00000000#32) :
    multiReduction .add [0] S1 v 0x00000000#32 reduces_S256x1_S1 hφ hacc (ix1 (0 : Fin 1))
      = ∑ p : Fin 256, v (ix2 p (0 : Fin 1)) := by
  refine (Ideal.multiReduction_add_single v 0x00000000#32 reduces_S256x1_S1 hφ hacc (ix1 (0 : Fin 1))).trans ?_
  show (∑ p : Fin 256, v (reduces_S256x1_S1.lift (ix1 (0 : Fin 1)) p)) = _
  refine Finset.sum_congr rfl fun p _ => congrArg v ?_
  funext a
  apply Fin.ext
  match a with
  | ⟨0, _⟩ => rfl
  | ⟨1, _⟩ => rfl

/-- The label's embedding: the one-hot row against the embedding matrix picks the label's row. -/
private theorem yemb_apply (x2 : Vec Ideal S256x1 .i32) (x3 : FVec Ideal S1000x2048 .bf16) (p : Fin 256) (k : Fin 2048)
    (h : (x2 (ix2 p (0 : Fin 1))).toNat < 1000) :
    (matmul dot_S256x1000_S1000x2048_S256x2048_1_0_0_1_n_n none
        (truncf .bf16 (sitofp .f32 (extui 32 (k0_pay5 (F := Ideal) x2) natLt_1_32) : FVec Ideal S256x1000 .f32) bitsLt_bf16_f32
          : FVec Ideal S256x1000 .bf16)
        (shapeCast S1000x2048 x3 shapeCasts_S1000x2048_S1000x2048)
        (constant S256x2048 .f32 0x00000000#32) : FVec Ideal S256x2048 .f32) (ix2 p k)
      = x3 (ix2 (CEB.cls (x2 (ix2 p (0 : Fin 1)))) k) := by
  rw [shapeCast_self]
  refine (PlainDot.matmul_zero_apply dot_S256x1000_S1000x2048_S256x2048_1_0_0_1_n_n ⟨rfl, rfl, rfl, rfl, rfl, rfl⟩ none _ _ p k).trans ?_
  rw [Finset.sum_congr rfl (fun q _ => by rw [onehot_apply x2 p q h])]
  simp only [ite_mul, one_mul, zero_mul]
  rw [Finset.sum_ite_eq', if_pos (Finset.mem_univ _)]

/-- The embedding bias, a 1×2048 row copied to every row of the block. -/
private theorem biasRow_apply (x4 : FVec Ideal S1x2048 .f32) (p : Fin 256) (k : Fin 2048) :
    broadcastTo S256x2048 (shapeCast S1x2048 x4 shapeCasts_S1x2048_S1x2048) broadcasts_S1x2048_S256x2048 (ix2 p k)
      = x4 (ix2 (0 : Fin 1) k) := by
  rw [shapeCast_self]
  exact broadcastTo_apply x4 broadcasts_S1x2048_S256x2048 (ix2 p k) (ix2 (0 : Fin 1) k)
    (fun a => match a with | ⟨0, _⟩ => rfl | ⟨1, _⟩ => rfl)

/-- The rate column at row p: the difference of the two Gaussian terms. -/
private theorem pay6_apply (x0 x1 : Vec Ideal S256x2048 .f32) (x2 : Vec Ideal S256x1 .i32) (x3 : FVec Ideal S1000x2048 .bf16)
    (x4 : Vec Ideal S1x2048 .f32) (p : Fin 256) (h : (x2 (ix2 p (0 : Fin 1))).toNat < 1000) :
    k0_pay6 x0 x1 x2 x3 x4 (ix2 p (0 : Fin 1))
      = (CEB.half * (∑ k : Fin 2048,
            ((x0 (ix2 p k) + x1 (ix2 p k)) - (x3 (ix2 (CEB.cls (x2 (ix2 p (0 : Fin 1)))) k) + x4 (ix2 (0 : Fin 1) k)))
              * ((x0 (ix2 p k) + x1 (ix2 p k)) - (x3 (ix2 (CEB.cls (x2 (ix2 p (0 : Fin 1)))) k) + x4 (ix2 (0 : Fin 1) k))))
          + CEB.cst)
        - (CEB.half * (∑ k : Fin 2048, x1 (ix2 p k) * x1 (ix2 p k)) + CEB.cst) := by
  unfold k0_pay6
  simp only [subf_apply, addf_apply, mulf_apply, broadcast_apply, colCast_apply, Ideal.ofBits_def]
  rw [rowSum2048_apply, rowSum2048_apply]
  simp only [subf_apply, addf_apply, mulf_apply, k0_pay3, fun k => yemb_apply x2 x3 p k h, biasRow_apply]
  rfl

/-- A select on a bit that is one exactly when a condition holds. -/
private theorem select_ite {α : Type} (c : Prop) [Decidable c] (a b : α) :
    Scalar.select (if c then 1#1 else 0#1) a b = if c then a else b := by
  by_cases hc : c
  · rw [if_pos hc, if_pos hc]; exact select_one a b
  · rw [if_neg hc, if_neg hc]; exact select_zero a b

/-- The masked sum of row p's log-probabilities picks the label's. -/
private theorem masked_apply (x0 x1 : Vec Ideal S256x2048 .f32) (x2 : Vec Ideal S256x1 .i32) (x5 : Vec Ideal S2048x1000 .bf16)
    (x6 : Vec Ideal S1x1000 .f32) (hφ : FKind.Formats .f32) (hacc : (0x00000000#32 : BitVec 32) = 0x00000000#32)
    (p : Fin 256) (h : (x2 (ix2 p (0 : Fin 1))).toNat < 1000) :
    multiReduction .add [1] S256
        (select (k0_pay5 (F := Ideal) x2) (k0_pay7 (k0_pay4 x0 x1) x5 x6)
          (broadcast S256x1000 (Scalar.ofBits (F := Ideal) .f32 0x00000000#32)))
        0x00000000#32 reduces_S256x1000_S256 hφ hacc (ix1 p)
      = CEB.logit (zblk x0 x1 p) (fun k q' => x5 (ix2 k q')) (fun q' => x6 (ix2 (0 : Fin 1) q'))
          (CEB.cls (x2 (ix2 p (0 : Fin 1)))) := by
  rw [rowSum1000_apply]
  have e : ∀ q : Fin 1000,
      select (k0_pay5 (F := Ideal) x2) (k0_pay7 (k0_pay4 x0 x1) x5 x6)
          (broadcast S256x1000 (Scalar.ofBits (F := Ideal) .f32 0x00000000#32)) (ix2 p q)
        = if q = CEB.cls (x2 (ix2 p (0 : Fin 1))) then
            CEB.logit (zblk x0 x1 p) (fun k q' => x5 (ix2 k q')) (fun q' => x6 (ix2 (0 : Fin 1) q')) q
          else 0 := by
    intro q
    rw [select_apply, bit_eq_ite x2 p q h, select_ite, broadcast_apply]
    have hl : k0_pay7 (k0_pay4 x0 x1) x5 x6 (ix2 p q)
        = CEB.logit (zblk x0 x1 p) (fun k q' => x5 (ix2 k q')) (fun q' => x6 (ix2 (0 : Fin 1) q')) q :=
      logitsBlk_apply x0 x1 x5 x6 p q
    have hz0 : Scalar.ofBits (F := Ideal) .f32 0x00000000#32 = 0 := Ideal.ofBits_zero_f32
    rw [hl, hz0]
  rw [Finset.sum_congr rfl (fun q _ => e q), Finset.sum_ite_eq', if_pos (Finset.mem_univ _)]

/-- A 1×1 value copied over the 8×128 tile. -/
private theorem tile_apply (w : FVec Ideal S1x1 .f32) (a : Fin 8) (b : Fin 128) :
    broadcastTo S8x128 w broadcasts_S1x1_S8x128 (ix2 a b) = w (ix2 (0 : Fin 1) (0 : Fin 1)) :=
  broadcastTo_apply w broadcasts_S1x1_S8x128 (ix2 a b) (ix2 (0 : Fin 1) (0 : Fin 1))
    (fun d => match d with | ⟨0, _⟩ => rfl | ⟨1, _⟩ => rfl)

/-- A one-entry vector viewed as a 1×1 matrix. -/
private theorem unitCast_apply {α : Type} (v : S1.Idx → α) :
    shapeCast S1x1 v shapeCasts_S1_S1x1 (ix2 (0 : Fin 1) (0 : Fin 1)) = v (ix1 (0 : Fin 1)) := by
  refine shapeCast_apply v shapeCasts_S1_S1x1 (ix2 (0 : Fin 1) (0 : Fin 1)) (ix1 (0 : Fin 1)) ?_
  rw [Shape.rowMajor_val_one, Shape.rowMajor_val_two]
  rfl

/-- Row p's entry of the column that is summed: the weighted rate term minus the label's log-probability. -/
private theorem rowTerm_apply (x0 x1 : Vec Ideal S256x2048 .f32) (x2 : Vec Ideal S256x1 .i32) (x3 : FVec Ideal S1000x2048 .bf16)
    (x4 : FVec Ideal S1x2048 .f32) (x5 : Vec Ideal S2048x1000 .bf16) (x6 : Vec Ideal S1x1000 .f32)
    (hφ : FKind.Formats .f32) (hacc : (0x00000000#32 : BitVec 32) = 0x00000000#32)
    (p : Fin 256) (h : (x2 (ix2 p (0 : Fin 1))).toNat < 1000) :
    addf (mulf (broadcast S256x1 (Scalar.ofBits (F := Ideal) .f32 0x0000001B#32)) (k0_pay6 x0 x1 x2 x3 x4))
        (subf (broadcast S256x1 (Scalar.ofBits (F := Ideal) .f32 0x00000000#32))
          (shapeCast S256x1
            (multiReduction .add [1] S256
              (select (k0_pay5 (F := Ideal) x2) (k0_pay7 (k0_pay4 x0 x1) x5 x6)
                (broadcast S256x1000 (Scalar.ofBits (F := Ideal) .f32 0x00000000#32)))
              0x00000000#32 reduces_S256x1000_S256 hφ hacc)
            shapeCasts_S256_S256x1)) (ix2 p (0 : Fin 1))
      = CEB.rowLoss (fun k => x0 (ix2 p k)) (fun k => x1 (ix2 p k))
          (fun k => x3 (ix2 (CEB.cls (x2 (ix2 p (0 : Fin 1)))) k)) (fun k => x4 (ix2 (0 : Fin 1) k))
          (CEB.logit (zblk x0 x1 p) (fun k q' => x5 (ix2 k q')) (fun q' => x6 (ix2 (0 : Fin 1) q'))
            (CEB.cls (x2 (ix2 p (0 : Fin 1))))) := by
  rw [addf_apply, mulf_apply, subf_apply, broadcast_apply, broadcast_apply, colCast_apply,
    masked_apply x0 x1 x2 x5 x6 hφ hacc p h, pay6_apply x0 x1 x2 x3 x4 p h]
  have hz0 : Scalar.ofBits (F := Ideal) .f32 0x00000000#32 = 0 := Ideal.ofBits_zero_f32
  rw [hz0, zero_sub]
  rfl

/-- The accumulator update at any entry of the tile, when every label word of the block is a class index. -/
theorem accNext_apply (x0 : Vec Ideal S256x2048 .f32) (x1 : Vec Ideal S256x2048 .f32) (x2 : Vec Ideal S256x1 .i32) (x3 : Vec Ideal S1000x2048 .bf16) (x4 : Vec Ideal S1x2048 .f32) (x5 : Vec Ideal S2048x1000 .bf16) (x6 : Vec Ideal S1x1000 .f32) (acc : Vec Ideal S8x128 .f32)
    (hr : ∀ p : Fin 256, (x2 (ix2 p (0 : Fin 1))).toNat < 1000) (y : S8x128.Idx) :
    accNext x0 x1 x2 x3 x4 x5 x6 acc y
      = acc y + ∑ p : Fin 256,
          CEB.rowLoss (fun k => x0 (ix2 p k)) (fun k => x1 (ix2 p k))
            (fun k => x3 (ix2 (CEB.cls (x2 (ix2 p (0 : Fin 1)))) k)) (fun k => x4 (ix2 (0 : Fin 1) k))
            (CEB.logit (zblk x0 x1 p) (fun k q' => x5 (ix2 k q')) (fun q' => x6 (ix2 (0 : Fin 1) q'))
              (CEB.cls (x2 (ix2 p (0 : Fin 1))))) := by
  obtain ⟨a, b, rfl⟩ : ∃ (a : Fin 8) (b : Fin 128), y = ix2 a b := ⟨y 0, y 1, eq_ix2 y⟩
  unfold accNext k0_pay8
  rw [shapeCast_self, addf_apply, tile_apply, shapeCast_self, unitCast_apply, colSum_apply]
  exact congrArg (acc (ix2 a b) + ·)
    (Finset.sum_congr rfl fun p _ => rowTerm_apply x0 x1 x2 x3 x4 x5 x6 _ _ p (hr p))

end Cert.KernelIdeal.KVal

end
-- ==== Proof.KInputs.lean ====
/-
  A point's input blocks, read entry by entry off the argument arrays.

  Point t stages rows 256·t … 256·t + 255 of the features, the noise and the labels; the two weight matrices arrive
  transposed (and narrowed, which is the identity on the extended reals), the two biases as one-row matrices, the
  labels as a one-column matrix: at every point those four blocks are the whole arrays.
-/
import proofs.«402298_j34050500722818_2_alg».proof.Proof.Gen.KernelIdeal.Frame
import proofs.«402298_j34050500722818_2_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.KVal

open Cert.KernelIdeal Cert.KernelIdeal.Gen

variable (m : (ℓ : Loc nD τ sig) → Buf (Elt Ideal) ℓ)

/-- The feature block of point t. -/
abbrev blk0 (c : Dev nD) (t : Fin cfg0.N) : Vec Ideal S256x2048 .f32 := iblk m c 0 t
/-- The noise block of point t. -/
abbrev blk1 (c : Dev nD) (t : Fin cfg0.N) : Vec Ideal S256x2048 .f32 := iblk m c 1 t
/-- The label block of point t (one column). -/
abbrev blk2 (c : Dev nD) (t : Fin cfg0.N) : Vec Ideal S256x1 .i32 := iblk m c 2 t
/-- The embedding matrix, transposed: (class, hidden coordinate). -/
abbrev blk3 (c : Dev nD) (t : Fin cfg0.N) : Vec Ideal S1000x2048 .bf16 := iblk m c 3 t
/-- The embedding bias as one row. -/
abbrev blk4 (c : Dev nD) (t : Fin cfg0.N) : Vec Ideal S1x2048 .f32 := iblk m c 4 t
/-- The classifier matrix, transposed: (hidden coordinate, class). -/
abbrev blk5 (c : Dev nD) (t : Fin cfg0.N) : Vec Ideal S2048x1000 .bf16 := iblk m c 5 t
/-- The classifier bias as one row. -/
abbrev blk6 (c : Dev nD) (t : Fin cfg0.N) : Vec Ideal S1x1000 .f32 := iblk m c 6 t

/-! ## Where each window's block sits: the index maps, decided once over the 32 points -/

/-- The feature window's block index at point t is (t, 0). -/
private theorem rowIdx0 : ∀ t : Fin cfg0.N, win0_0.index t 0 = t.val ∧ win0_0.index t 1 = 0 :=
  (by decide +kernel : ∀ t : Fin grid0.N, win0_0.index t 0 = t.val ∧ win0_0.index t 1 = 0)
/-- The noise window's block index at point t is (t, 0). -/
private theorem rowIdx1 : ∀ t : Fin cfg0.N, win0_1.index t 0 = t.val ∧ win0_1.index t 1 = 0 :=
  (by decide +kernel : ∀ t : Fin grid0.N, win0_1.index t 0 = t.val ∧ win0_1.index t 1 = 0)
/-- The label window's block index at point t is (t, 0). -/
private theorem rowIdx2 : ∀ t : Fin cfg0.N, win0_2.index t 0 = t.val ∧ win0_2.index t 1 = 0 :=
  (by decide +kernel : ∀ t : Fin grid0.N, win0_2.index t 0 = t.val ∧ win0_2.index t 1 = 0)
/-- The four whole-array windows sit at block (0, 0) at every point. -/
private theorem rowIdx3 : ∀ t : Fin cfg0.N, win0_3.index t 0 = 0 ∧ win0_3.index t 1 = 0 :=
  (by decide +kernel : ∀ t : Fin grid0.N, win0_3.index t 0 = 0 ∧ win0_3.index t 1 = 0)
private theorem rowIdx4 : ∀ t : Fin cfg0.N, win0_4.index t 0 = 0 ∧ win0_4.index t 1 = 0 :=
  (by decide +kernel : ∀ t : Fin grid0.N, win0_4.index t 0 = 0 ∧ win0_4.index t 1 = 0)
private theorem rowIdx5 : ∀ t : Fin cfg0.N, win0_5.index t 0 = 0 ∧ win0_5.index t 1 = 0 :=
  (by decide +kernel : ∀ t : Fin grid0.N, win0_5.index t 0 = 0 ∧ win0_5.index t 1 = 0)
private theorem rowIdx6 : ∀ t : Fin cfg0.N, win0_6.index t 0 = 0 ∧ win0_6.index t 1 = 0 :=
  (by decide +kernel : ∀ t : Fin grid0.N, win0_6.index t 0 = 0 ∧ win0_6.index t 1 = 0)

/-- Row p of point t's feature block is row 256·t + p of the features. -/
theorem blk0_apply (c : Dev nD) (t : Fin cfg0.N) (b : Fin 32) (hb : t.val = b.val) (p : Fin 256) (k : Fin 2048) :
    blk0 m c t (ix2 p k) = m ((c : Thread nD τ).loc main_arg0) (ix2 (CEB.brow b p) k) := by
  have hi := rowIdx0 t
  show iblk m c 0 t (ix2 p k) = _
  unfold iblk
  rw [View.read_apply]
  show V m c main_arg0 (((cfg0.win 0).blk t).view.emb (ix2 p k)) = _
  rw [V_main_arg0]
  refine congrArg _ (funext fun a => Fin.ext ?_)
  match a with
  | ⟨0, _⟩ => show win0_0.index t 0 * 256 + 1 * p.val = 256 * b.val + p.val; rw [hi.1]; omega
  | ⟨1, _⟩ => show win0_0.index t 1 * 2048 + 1 * k.val = k.val; rw [hi.2]; omega

/-- Row p of point t's noise block is row 256·t + p of the noise. -/
theorem blk1_apply (c : Dev nD) (t : Fin cfg0.N) (b : Fin 32) (hb : t.val = b.val) (p : Fin 256) (k : Fin 2048) :
    blk1 m c t (ix2 p k) = m ((c : Thread nD τ).loc main_arg5) (ix2 (CEB.brow b p) k) := by
  have hi := rowIdx1 t
  show iblk m c 1 t (ix2 p k) = _
  unfold iblk
  rw [View.read_apply]
  show V m c main_arg5 (((cfg0.win 1).blk t).view.emb (ix2 p k)) = _
  rw [V_main_arg5]
  refine congrArg _ (funext fun a => Fin.ext ?_)
  match a with
  | ⟨0, _⟩ => show win0_1.index t 0 * 256 + 1 * p.val = 256 * b.val + p.val; rw [hi.1]; omega
  | ⟨1, _⟩ => show win0_1.index t 1 * 2048 + 1 * k.val = k.val; rw [hi.2]; omega

/-- Entry p of point t's label block is label 256·t + p. -/
theorem blk2_apply (c : Dev nD) (t : Fin cfg0.N) (b : Fin 32) (hb : t.val = b.val) (p : Fin 256) :
    blk2 m c t (ix2 p (0 : Fin 1)) = m ((c : Thread nD τ).loc main_arg6) (ix1 (CEB.brow b p)) := by
  have hi := rowIdx2 t
  -- the one-column label matrix is the label vector re-indexed row-major
  have e : (V m c main_v0 : Vec Ideal S8192x1 .i32)
      = shapeCast S8192x1 (m ((c : Thread nD τ).loc main_arg6)) shapeCasts_S8192_S8192x1 := by
    show StableHlo.after hostOps0 (fun b => m (c, b)) (Proc.devRef .tc main_v0) = _
    after_results
    rfl
  show iblk m c 2 t (ix2 p (0 : Fin 1)) = _
  unfold iblk
  rw [View.read_apply]
  show V m c main_v0 (((cfg0.win 2).blk t).view.emb (ix2 p (0 : Fin 1))) = _
  refine (congrFun e _).trans ?_
  refine shapeCast_apply _ _ _ (ix1 (CEB.brow b p)) ?_
  rw [Shape.rowMajor_val_one, Shape.rowMajor_val_two]
  show 256 * b.val + p.val = (win0_2.index t 0 * 256 + 1 * p.val) * 1 + (win0_2.index t 1 * 1 + 1 * 0)
  rw [hi.1, hi.2]; omega

/-- The staged embedding matrix at (class q, coordinate k) is the embedding matrix at (k, q). -/
theorem blk3_apply (c : Dev nD) (t : Fin cfg0.N) (q : Fin 1000) (k : Fin 2048) :
    blk3 m c t (ix2 q k) = m ((c : Thread nD τ).loc main_arg1) (ix2 k q) := by
  have hi := rowIdx3 t
  -- the staged matrix is the embedding matrix transposed, then narrowed
  have e : (V m c main_v2 : Vec Ideal S1000x2048 .bf16)
      = truncf (F := Ideal) (φ := .f32) .bf16 (transpose S1000x2048 [1, 0] (m ((c : Thread nD τ).loc main_arg1))
          transposes_S2048x1000_S1000x2048_1_0) bitsLt_bf16_f32 := by
    show StableHlo.after hostOps0 (fun b => m (c, b)) (Proc.devRef .tc main_v2) = _
    after_results
  show iblk m c 3 t (ix2 q k) = _
  unfold iblk
  rw [View.read_apply]
  show V m c main_v2 (((cfg0.win 3).blk t).view.emb (ix2 q k)) = _
  refine (congrFun e _).trans ?_
  -- narrowing is the identity on the extended reals
  refine (truncf_apply (φ := .f32) (ψ := .bf16) _ bitsLt_bf16_f32 _).trans ?_
  refine transpose_apply _ _ _ _ (ix2 k q) fun a => ?_
  match a with
  | ⟨0, _⟩ => show q.val = win0_3.index t 0 * 1000 + 1 * q.val; rw [hi.1]; omega
  | ⟨1, _⟩ => show k.val = win0_3.index t 1 * 2048 + 1 * k.val; rw [hi.2]; omega

/-- The staged embedding bias at (0, k) is the bias at k. -/
theorem blk4_apply (c : Dev nD) (t : Fin cfg0.N) (k : Fin 2048) :
    blk4 m c t (ix2 (0 : Fin 1) k) = m ((c : Thread nD τ).loc main_arg2) (ix1 k) := by
  have hi := rowIdx4 t
  have e : (V m c main_v5 : Vec Ideal S1x2048 .f32)
      = shapeCast S1x2048 (m ((c : Thread nD τ).loc main_arg2)) shapeCasts_S2048_S1x2048 := by
    show StableHlo.after hostOps0 (fun b => m (c, b)) (Proc.devRef .tc main_v5) = _
    after_results
    rfl
  show iblk m c 4 t (ix2 (0 : Fin 1) k) = _
  unfold iblk
  rw [View.read_apply]
  show V m c main_v5 (((cfg0.win 4).blk t).view.emb (ix2 (0 : Fin 1) k)) = _
  refine (congrFun e _).trans ?_
  refine shapeCast_apply _ _ _ (ix1 k) ?_
  rw [Shape.rowMajor_val_one, Shape.rowMajor_val_two]
  show k.val = (win0_4.index t 0 * 1 + 1 * 0) * 2048 + (win0_4.index t 1 * 2048 + 1 * k.val)
  rw [hi.1, hi.2]; omega

/-- The staged classifier matrix at (coordinate k, class q) is the classifier matrix at (q, k). -/
theorem blk5_apply (c : Dev nD) (t : Fin cfg0.N) (k : Fin 2048) (q : Fin 1000) :
    blk5 m c t (ix2 k q) = m ((c : Thread nD τ).loc main_arg3) (ix2 q k) := by
  have hi := rowIdx5 t
  have e : (V m c main_v4 : Vec Ideal S2048x1000 .bf16)
      = truncf (F := Ideal) (φ := .f32) .bf16 (transpose S2048x1000 [1, 0] (m ((c : Thread nD τ).loc main_arg3))
          transposes_S1000x2048_S2048x1000_1_0) bitsLt_bf16_f32 := by
    show StableHlo.after hostOps0 (fun b => m (c, b)) (Proc.devRef .tc main_v4) = _
    after_results
  show iblk m c 5 t (ix2 k q) = _
  unfold iblk
  rw [View.read_apply]
  show V m c main_v4 (((cfg0.win 5).blk t).view.emb (ix2 k q)) = _
  refine (congrFun e _).trans ?_
  refine (truncf_apply (φ := .f32) (ψ := .bf16) _ bitsLt_bf16_f32 _).trans ?_
  refine transpose_apply _ _ _ _ (ix2 q k) fun a => ?_
  match a with
  | ⟨0, _⟩ => show k.val = win0_5.index t 0 * 2048 + 1 * k.val; rw [hi.1]; omega
  | ⟨1, _⟩ => show q.val = win0_5.index t 1 * 1000 + 1 * q.val; rw [hi.2]; omega

/-- The staged classifier bias at (0, q) is the bias at q. -/
theorem blk6_apply (c : Dev nD) (t : Fin cfg0.N) (q : Fin 1000) :
    blk6 m c t (ix2 (0 : Fin 1) q) = m ((c : Thread nD τ).loc main_arg4) (ix1 q) := by
  have hi := rowIdx6 t
  have e : (V m c main_v6 : Vec Ideal S1x1000 .f32)
      = shapeCast S1x1000 (m ((c : Thread nD τ).loc main_arg4)) shapeCasts_S1000_S1x1000 := by
    show StableHlo.after hostOps0 (fun b => m (c, b)) (Proc.devRef .tc main_v6) = _
    after_results
    rfl
  show iblk m c 6 t (ix2 (0 : Fin 1) q) = _
  unfold iblk
  rw [View.read_apply]
  show V m c main_v6 (((cfg0.win 6).blk t).view.emb (ix2 (0 : Fin 1) q)) = _
  refine (congrFun e _).trans ?_
  refine shapeCast_apply _ _ _ (ix1 q) ?_
  rw [Shape.rowMajor_val_one, Shape.rowMajor_val_two]
  show q.val = (win0_6.index t 0 * 1 + 1 * 0) * 1000 + (win0_6.index t 1 * 1000 + 1 * q.val)
  rw [hi.1, hi.2]; omega

end Cert.KernelIdeal.KVal

end
-- ==== Proof.KAcc.lean ====
/-
  What the kernel's staging buffers hold after each grid point, as functions of the argument arrays.

  After point t the log-probability buffer holds rows 256·t … 256·t + 255 of the specification's matrix.  The
  accumulator holds, at every entry, the sum of the row terms of all rows up to block t (by induction on the point:
  zero plus the first block's partial sum, then one more block's partial sum per point), so after the last point it
  holds the sum over all 8192 rows, and the loss tile holds that sum divided by the batch size: the loss.
-/
import proofs.«402298_j34050500722818_2_alg».proof.Proof.KBlockAcc
import proofs.«402298_j34050500722818_2_alg».proof.Proof.KInputs

noncomputable section

open Idealize.ShloMosaic Idealize.ShloMosaic.TcCoe Idealize.SL.Sem Idealize.ShloMosaic.ValueIdx

namespace Cert.KernelIdeal.KVal

open Cert.KernelIdeal Cert.KernelIdeal.Gen

variable (m : (ℓ : Loc nD τ sig) → Buf (Elt Ideal) ℓ)

/-- Row p of point t's sample block is row 256·t + p of the samples. -/
private theorem zblk_blocks (c : Dev nD) (t : Fin cfg0.N) (b : Fin 32) (hb : t.val = b.val) (p : Fin 256) :
    zblk (blk0 m c t) (blk1 m c t) p = CEB.zrow (m ((c : Thread nD τ).loc main_arg0)) (m ((c : Thread nD τ).loc main_arg5)) (CEB.brow b p) := by
  funext k
  unfold zblk CEB.zrow
  rw [blk0_apply m c t b hb p k, blk1_apply m c t b hb p k]

/-- The staged classifier matrix is the specification's (hidden coordinate, class) reading of the classifier matrix. -/
private theorem wblk_blocks (c : Dev nD) (t : Fin cfg0.N) :
    (fun (k : Fin 2048) (q' : Fin 1000) => blk5 m c t (ix2 k q')) = CEB.Wc (m ((c : Thread nD τ).loc main_arg3)) := by
  funext k q'
  exact blk5_apply m c t k q'

/-- The staged classifier bias is the specification's bias by class. -/
private theorem bblk_blocks (c : Dev nD) (t : Fin cfg0.N) :
    (fun (q' : Fin 1000) => blk6 m c t (ix2 (0 : Fin 1) q')) = CEB.bc (m ((c : Thread nD τ).loc main_arg4)) := by
  funext q'
  exact blk6_apply m c t q'

/-- The log-probability block computed from point t's blocks is block t of the specification's matrix. -/
private theorem logitsBlk_blocks (c : Dev nD) (t : Fin cfg0.N) (b : Fin 32) (hb : t.val = b.val) :
    logitsBlk (blk0 m c t) (blk1 m c t) (blk5 m c t) (blk6 m c t)
      = fun y : S256x1000.Idx =>
          CEB.logits (m ((c : Thread nD τ).loc main_arg0)) (m ((c : Thread nD τ).loc main_arg5)) (m ((c : Thread nD τ).loc main_arg3)) (m ((c : Thread nD τ).loc main_arg4)) (ix2 (CEB.brow b (y 0)) (y 1)) := by
  funext y
  obtain ⟨p, q, rfl⟩ : ∃ (p : Fin 256) (q : Fin 1000), y = ix2 p q := ⟨y 0, y 1, eq_ix2 y⟩
  rw [logitsBlk_apply, zblk_blocks m c t b hb p, wblk_blocks m c t, bblk_blocks m c t]
  rfl

/-- After point t the log-probability staging buffer holds block t of the specification's matrix. -/
theorem outs_logits (c : Dev nD) (t : Fin cfg0.N) (b : Fin 32) (hb : t.val = b.val) :
    (outsAt0 m c t.val t.isLt).1
      = fun y : S256x1000.Idx =>
          CEB.logits (m ((c : Thread nD τ).loc main_arg0)) (m ((c : Thread nD τ).loc main_arg5)) (m ((c : Thread nD τ).loc main_arg3)) (m ((c : Thread nD τ).loc main_arg4)) (ix2 (CEB.brow b (y 0)) (y 1)) := by
  have hN : t.val < 32 := lt_of_lt_of_eq t.isLt (show cfg0.N = 32 from N_0)
  by_cases h0 : t.val % 32 = 0
  · have h1 : ¬t.val % 32 = 31 := by omega
    rw [outsAt0_A m c t h0 h1]; dsimp only
    exact (out7_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (blk0 m c t) (blk1 m c t) (blk2 m c t) (blk3 m c t) (blk4 m c t) (blk5 m c t) (blk6 m c t)).trans (logitsBlk_blocks m c t b hb)
  · by_cases h1 : t.val % 32 = 31
    · rw [outsAt0_C m c t h0 h1]; dsimp only
      exact (out7_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (blk0 m c t) (blk1 m c t) (blk2 m c t) (blk3 m c t) (blk4 m c t) (blk5 m c t) (blk6 m c t) (outsAt0 m c (t.val - 1) (Nat.lt_of_le_of_lt (Nat.sub_le _ _) t.isLt)).2.2).trans (logitsBlk_blocks m c t b hb)
    · rw [outsAt0_B m c t h0 h1]; dsimp only
      exact (out7_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (blk0 m c t) (blk1 m c t) (blk2 m c t) (blk3 m c t) (blk4 m c t) (blk5 m c t) (blk6 m c t) (outsAt0 m c (t.val - 1) (Nat.lt_of_le_of_lt (Nat.sub_le _ _) t.isLt)).2.2).trans (logitsBlk_blocks m c t b hb)

/-- Two row losses agree when their five ingredients agree. -/
private theorem rowLoss_congr {f f' e e' y y' v v' : Fin 2048 → EReal} {l l' : EReal}
    (h0 : f = f') (h1 : e = e') (h2 : y = y') (h3 : v = v') (h4 : l = l') :
    CEB.rowLoss f e y v l = CEB.rowLoss f' e' y' v' l' := by
  subst h0 h1 h2 h3 h4; rfl

/-- The accumulator update of point t adds the sum of the row terms of block t's 256 rows. -/
private theorem accNext_blocks (c : Dev nD) (hr : ∀ r : Fin 8192, (m ((c : Thread nD τ).loc main_arg6) (ix1 r)).toNat < 1000)
    (t : Fin cfg0.N) (b : Fin 32) (hb : t.val = b.val) (acc : Vec Ideal S8x128 .f32) (y : S8x128.Idx) :
    accNext (blk0 m c t) (blk1 m c t) (blk2 m c t) (blk3 m c t) (blk4 m c t) (blk5 m c t) (blk6 m c t) acc y
      = acc y + ∑ p : Fin 256, CEB.rowTerm (m ((c : Thread nD τ).loc main_arg0)) (m ((c : Thread nD τ).loc main_arg5)) (m ((c : Thread nD τ).loc main_arg1)) (m ((c : Thread nD τ).loc main_arg2)) (m ((c : Thread nD τ).loc main_arg3)) (m ((c : Thread nD τ).loc main_arg4)) (m ((c : Thread nD τ).loc main_arg6)) (CEB.brow b p) := by
  rw [accNext_apply (blk0 m c t) (blk1 m c t) (blk2 m c t) (blk3 m c t) (blk4 m c t) (blk5 m c t) (blk6 m c t) acc
    (fun p => by rw [blk2_apply m c t b hb p]; exact hr (CEB.brow b p)) y]
  refine congrArg _ ?_
  refine Finset.sum_congr rfl (fun p _ => ?_)
  unfold CEB.rowTerm CEB.col
  refine rowLoss_congr ?_ ?_ ?_ ?_ ?_
  · exact funext fun k => blk0_apply m c t b hb p k
  · exact funext fun k => blk1_apply m c t b hb p k
  · rw [blk2_apply m c t b hb p]
    exact funext fun k => blk3_apply m c t _ k
  · exact funext fun k => blk4_apply m c t k
  · rw [blk2_apply m c t b hb p, zblk_blocks m c t b hb p, wblk_blocks m c t, bblk_blocks m c t]

/-- The sum of the row terms of block j (zero past the last block). -/
private def partN (c : Dev nD) (j : ℕ) : EReal :=
  if hj : j < 32 then ∑ p : Fin 256, CEB.rowTerm (m ((c : Thread nD τ).loc main_arg0)) (m ((c : Thread nD τ).loc main_arg5)) (m ((c : Thread nD τ).loc main_arg1)) (m ((c : Thread nD τ).loc main_arg2)) (m ((c : Thread nD τ).loc main_arg3)) (m ((c : Thread nD τ).loc main_arg4)) (m ((c : Thread nD τ).loc main_arg6)) (CEB.brow ⟨j, hj⟩ p) else 0

private theorem partN_lt (c : Dev nD) (j : ℕ) (hj : j < 32) :
    partN m c j = ∑ p : Fin 256, CEB.rowTerm (m ((c : Thread nD τ).loc main_arg0)) (m ((c : Thread nD τ).loc main_arg5)) (m ((c : Thread nD τ).loc main_arg1)) (m ((c : Thread nD τ).loc main_arg2)) (m ((c : Thread nD τ).loc main_arg3)) (m ((c : Thread nD τ).loc main_arg4)) (m ((c : Thread nD τ).loc main_arg6)) (CEB.brow ⟨j, hj⟩ p) := by
  unfold partN; exact dif_pos hj

/-- After point n the accumulator holds, at every entry, the sum of the row terms of blocks 0 … n. -/
private theorem acc_eq (c : Dev nD) (hr : ∀ r : Fin 8192, (m ((c : Thread nD τ).loc main_arg6) (ix1 r)).toNat < 1000) :
    ∀ (n : ℕ) (t : Fin cfg0.N), t.val = n →
      (outsAt0 m c t.val t.isLt).2.2 = fun _ : S8x128.Idx => ∑ j ∈ Finset.range (n + 1), partN m c j := by
  intro n
  induction n with
  | zero =>
    intro t ht
    have h0 : t.val % 32 = 0 := by omega
    have h1 : ¬t.val % 32 = 31 := by omega
    rw [outsAt0_A m c t h0 h1]; dsimp only
    funext y
    refine (congrFun (sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (blk0 m c t) (blk1 m c t) (blk2 m c t) (blk3 m c t) (blk4 m c t) (blk5 m c t) (blk6 m c t)) y).trans ?_
    rw [accNext_blocks m c hr t ⟨0, by norm_num⟩ ht (accZero (F := Ideal)) y, accZero_apply, zero_add,
      Finset.sum_range_one, partN_lt m c 0 (by norm_num)]
  | succ n ih =>
    intro t ht
    have hN : t.val < 32 := lt_of_lt_of_eq t.isLt (show cfg0.N = 32 from N_0)
    have hlt : n + 1 < 32 := by omega
    have h0 : ¬t.val % 32 = 0 := by omega
    have ihp : (outsAt0 m c (t.val - 1) (Nat.lt_of_le_of_lt (Nat.sub_le _ _) t.isLt)).2.2 = fun _ : S8x128.Idx => ∑ j ∈ Finset.range (n + 1), partN m c j :=
      ih ⟨t.val - 1, Nat.lt_of_le_of_lt (Nat.sub_le _ _) t.isLt⟩ (by show t.val - 1 = n; omega)
    by_cases h1 : t.val % 32 = 31
    · rw [outsAt0_C m c t h0 h1]; dsimp only
      funext y
      refine (congrFun (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (blk0 m c t) (blk1 m c t) (blk2 m c t) (blk3 m c t) (blk4 m c t) (blk5 m c t) (blk6 m c t) (outsAt0 m c (t.val - 1) (Nat.lt_of_le_of_lt (Nat.sub_le _ _) t.isLt)).2.2) y).trans ?_
      rw [accNext_blocks m c hr t ⟨n + 1, hlt⟩ ht (outsAt0 m c (t.val - 1) (Nat.lt_of_le_of_lt (Nat.sub_le _ _) t.isLt)).2.2 y, ihp,
        Finset.sum_range_succ (fun j => partN m c j) (n + 1), partN_lt m c (n + 1) hlt]
    · rw [outsAt0_B m c t h0 h1]; dsimp only
      funext y
      refine (congrFun (sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (blk0 m c t) (blk1 m c t) (blk2 m c t) (blk3 m c t) (blk4 m c t) (blk5 m c t) (blk6 m c t) (outsAt0 m c (t.val - 1) (Nat.lt_of_le_of_lt (Nat.sub_le _ _) t.isLt)).2.2) y).trans ?_
      rw [accNext_blocks m c hr t ⟨n + 1, hlt⟩ ht (outsAt0 m c (t.val - 1) (Nat.lt_of_le_of_lt (Nat.sub_le _ _) t.isLt)).2.2 y, ihp,
        Finset.sum_range_succ (fun j => partN m c j) (n + 1), partN_lt m c (n + 1) hlt]

/-- After the last point the loss tile holds the loss at every entry, when every label is a class index. -/
theorem outs_loss (c : Dev nD) (hr : ∀ r : Fin 8192, (m ((c : Thread nD τ).loc main_arg6) (ix1 r)).toNat < 1000)
    (t : Fin cfg0.N) (h31 : t.val = 31) :
    (outsAt0 m c t.val t.isLt).2.1
      = fun _ : S8x128.Idx =>
          CEB.loss (m ((c : Thread nD τ).loc main_arg0)) (m ((c : Thread nD τ).loc main_arg5)) (m ((c : Thread nD τ).loc main_arg1)) (m ((c : Thread nD τ).loc main_arg2)) (m ((c : Thread nD τ).loc main_arg3)) (m ((c : Thread nD τ).loc main_arg4)) (m ((c : Thread nD τ).loc main_arg6)) := by
  have h0 : ¬t.val % 32 = 0 := by omega
  have h1 : t.val % 32 = 31 := by omega
  have hacc := acc_eq m c hr 31 t h31
  rw [outsAt0_C m c t h0 h1] at hacc ⊢; dsimp only at hacc ⊢
  have hnext : accNext (blk0 m c t) (blk1 m c t) (blk2 m c t) (blk3 m c t) (blk4 m c t) (blk5 m c t) (blk6 m c t) (outsAt0 m c (t.val - 1) (Nat.lt_of_le_of_lt (Nat.sub_le _ _) t.isLt)).2.2
      = fun _ : S8x128.Idx => ∑ j ∈ Finset.range (31 + 1), partN m c j :=
    (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (blk0 m c t) (blk1 m c t) (blk2 m c t) (blk3 m c t) (blk4 m c t) (blk5 m c t) (blk6 m c t) (outsAt0 m c (t.val - 1) (Nat.lt_of_le_of_lt (Nat.sub_le _ _) t.isLt)).2.2).symm.trans hacc
  funext y
  refine (congrFun (out8_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (blk0 m c t) (blk1 m c t) (blk2 m c t) (blk3 m c t) (blk4 m c t) (blk5 m c t) (blk6 m c t) (outsAt0 m c (t.val - 1) (Nat.lt_of_le_of_lt (Nat.sub_le _ _) t.isLt)).2.2) y).trans ?_
  rw [lossTile_apply, hnext]
  unfold CEB.loss
  refine congrArg (fun s => Ideal.div s CEB.nB) ?_
  rw [Finset.sum_range (fun j => partN m c j)]
  refine Eq.trans (Finset.sum_congr rfl (fun b _ => partN_lt m c b.val b.isLt)) ?_
  exact CEB.sum_rows (fun r => CEB.rowTerm (m ((c : Thread nD τ).loc main_arg0)) (m ((c : Thread nD τ).loc main_arg5)) (m ((c : Thread nD τ).loc main_arg1)) (m ((c : Thread nD τ).loc main_arg2)) (m ((c : Thread nD τ).loc main_arg3)) (m ((c : Thread nD τ).loc main_arg4)) (m ((c : Thread nD τ).loc main_arg6)) r)

end Cert.KernelIdeal.KVal

end
-- ==== Proof.KValue.lean ====
/-
  The kernel's two results as functions of the argument arrays.

  Every grid point writes its block of clipped log-probabilities back to rows 256·t … 256·t + 255 of the first result,
  and the 32 blocks tile it: the array ends at the specification's matrix.  The loss tile is written back once, after
  the last point, when it holds the loss at every entry; the second result is its entry (0, 0), read out by a slice
  and a reshape after the region.
-/
import proofs.«402298_j34050500722818_2_alg».proof.Proof.KAcc
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable (m : (ℓ : Loc nD τ sig) → Buf (Elt Ideal) ℓ) (ρ : Dev nD → PrngReg)

/-- The first result: the specification's matrix of clipped log-probabilities of the launch contents. -/
abbrev G7 (c : Dev nD) : Buf (Elt Ideal) ((c : Thread nD τ).loc main_v7_0) :=
  CEB.logits (m ((c : Thread nD τ).loc main_arg0)) (m ((c : Thread nD τ).loc main_arg5)) (m ((c : Thread nD τ).loc main_arg3)) (m ((c : Thread nD τ).loc main_arg4))

/-- The loss of the launch contents. -/
abbrev lossOf (c : Dev nD) : EReal :=
  CEB.loss (m ((c : Thread nD τ).loc main_arg0)) (m ((c : Thread nD τ).loc main_arg5)) (m ((c : Thread nD τ).loc main_arg1)) (m ((c : Thread nD τ).loc main_arg2)) (m ((c : Thread nD τ).loc main_arg3)) (m ((c : Thread nD τ).loc main_arg4)) (m ((c : Thread nD τ).loc main_arg6))

/-- The loss tile's array: the loss at every entry. -/
abbrev G8 (c : Dev nD) : Buf (Elt Ideal) ((c : Thread nD τ).loc main_v7_1) := fun _ => lossOf m c

/-- The index maps of the two output windows over the grid: the log-probability block moves down one block of rows
    per point; the loss tile does not move. -/
theorem idx_out : ∀ t : Fin cfg0.N, win0_7.index t (0 : Fin 2) = t.val ∧ win0_7.index t (1 : Fin 2) = 0
    ∧ win0_8.index t (0 : Fin 2) = 0 ∧ win0_8.index t (1 : Fin 2) = 0 :=
  (by decide +kernel : ∀ t : Fin grid0.N, _)

/-- A grid point as a block number. -/
def blkOf (t : Fin cfg0.N) : Fin 32 := ⟨t.val, lt_of_lt_of_eq t.isLt N_0⟩

/-- What point t writes back of the first result is block t of the specification's matrix. -/
theorem flushed7 (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7, outs_logits m c t (blkOf t) rfl]
  obtain ⟨e0, e1, -, -⟩ := idx_out t
  funext j
  show CEB.logits _ _ _ _ (ix2 (CEB.brow (blkOf t) (j 0)) (j 1)) = G7 m c (((cfg0.win 7).blk t).view.emb j)
  refine congrArg (G7 m c) ?_
  funext a; apply Fin.ext
  match a with
  | ⟨0, _⟩ => show 256 * t.val + (j 0).val = win0_7.index t (0 : Fin 2) * 256 + 1 * (j 0).val; omega
  | ⟨1, _⟩ => show (j 1).val = win0_7.index t (1 : Fin 2) * 1000 + 1 * (j 1).val; omega

/-- An index of the first result lies in point t's block iff its row is among the block's 256 rows. -/
theorem mem_blk7 (t : Fin cfg0.N) (i : S8192x1000.Idx) :
    i ∈ ((cfg0.win 7).blk t).view.set ↔ ∀ a : Fin 2, win0_7.index t a * S256x1000.size a ≤ (i a).val ∧ (i a).val < win0_7.index t a * S256x1000.size a + S256x1000.size a := by
  show i ∈ ((View.whole main_v7_0).slice (win0_7.rect t)).set ↔ _
  rw [View.set_slice_whole, Rect.mem_set_unit]
  exact Iff.rfl

/-- The first result ends at the specification's matrix: row r is written by point r / 256. -/
theorem final7 (c : Dev nD) : (dats m 0 c).arrAt 7 cfg0.N = G7 m c :=
  (dats m 0 c).arrAt_eq_of_cover 7 (G7 m c) (fun t _ => flushed7 m c t) fun i => by
    have hi0 : (i 0).val < 8192 := (i 0).isLt
    have hi1 : (i 1).val < 1000 := (i 1).isLt
    let t : Fin cfg0.N := ⟨(i 0).val / 256, by show _ < grid0.N; rw [N_0]; omega⟩
    obtain ⟨e0, e1, -, -⟩ := idx_out t
    refine ⟨t, flush0_7 t, ?_⟩
    rw [mem_blk7]
    intro a
    match a with
    | ⟨0, _⟩ => show win0_7.index t (0 : Fin 2) * 256 ≤ (i 0).val ∧ (i 0).val < win0_7.index t (0 : Fin 2) * 256 + 256
                rw [e0]; show (i 0).val / 256 * 256 ≤ (i 0).val ∧ (i 0).val < (i 0).val / 256 * 256 + 256; omega
    | ⟨1, _⟩ => show win0_7.index t (1 : Fin 2) * 1000 ≤ (i 1).val ∧ (i 1).val < win0_7.index t (1 : Fin 2) * 1000 + 1000
                rw [e1]; omega

/-- An index of the loss tile's array lies in point t's block iff it lies in the one block there is. -/
theorem mem_blk8 (t : Fin cfg0.N) (i : S8x128.Idx) :
    i ∈ ((cfg0.win 8).blk t).view.set ↔ ∀ a : Fin 2, win0_8.index t a * S8x128.size a ≤ (i a).val ∧ (i a).val < win0_8.index t a * S8x128.size a + S8x128.size a := by
  show i ∈ ((View.whole main_v7_1).slice (win0_8.rect t)).set ↔ _
  rw [View.set_slice_whole, Rect.mem_set_unit]
  exact Iff.rfl

variable (hr : ∀ (c : Dev nD) (r : Fin 8192), (m ((c : Thread nD τ).loc main_arg6) (ix1 r)).toNat < 1000)
include hr

/-- The one write-back of the loss tile, after the last point, writes the loss at every entry. -/
theorem flushed8 (c : Dev nD) (t : Fin cfg0.N) (hf : (cfg0.win 8).flush t = true) :
    (dats m 0 c).flushed 8 t = ((cfg0.win 8).blk t).view.read (Elt Ideal) (G8 m c) := by
  have hN : t.val < 32 := lt_of_lt_of_eq t.isLt N_0
  have h31 : t.val = 31 := by have := (flush0_8 t).mp hf; omega
  show (cfg0.win 8).cut (grid0.coords t) ((dats m 0 c).after 8 t) = _
  rw [after0_8, outs_loss m c (hr c) t h31]
  rfl

/-- The loss tile's array ends at the loss everywhere: the last point's block is the whole array. -/
theorem final8 (c : Dev nD) : (dats m 0 c).arrAt 8 cfg0.N = G8 m c :=
  (dats m 0 c).arrAt_eq_of_cover 8 (G8 m c) (flushed8 m hr c) fun i => by
    have hi0 : (i 0).val < 8 := (i 0).isLt
    have hi1 : (i 1).val < 128 := (i 1).isLt
    let t : Fin cfg0.N := ⟨31, by show _ < grid0.N; rw [N_0]; omega⟩
    obtain ⟨-, -, e0, e1⟩ := idx_out t
    refine ⟨t, (flush0_8 t).mpr rfl, ?_⟩
    rw [mem_blk8]
    intro a
    match a with
    | ⟨0, _⟩ => show win0_8.index t (0 : Fin 2) * 8 ≤ (i 0).val ∧ (i 0).val < win0_8.index t (0 : Fin 2) * 8 + 8
                rw [e0]; omega
    | ⟨1, _⟩ => show win0_8.index t (1 : Fin 2) * 128 ≤ (i 1).val ∧ (i 1).val < win0_8.index t (1 : Fin 2) * 128 + 128
                rw [e1]; omega

/-- The second result: after the region a slice takes entry (0, 0) of the loss tile and a reshape makes it a scalar:
    the loss. -/
theorem tail9 (c : Dev nD) :
    Pipeline.afterTail₀ cfgs (dats m) 0 (V0 m) [hostOps1] c main_v9 = fun _ => lossOf m c := by
  unfold Pipeline.afterTail₀
  show StableHlo.after hostOps1 _ (Proc.devRef .tc main_v9) = _
  after_results
  have e8 : Pipeline.withArrays (cfgs 0).spec c (V0 m c) (fun w => (dats m 0 c).arrAt w (cfgs 0).N) (Proc.devRef .tc main_v7_1) = G8 m c :=
    (Pipeline.withArrays_arr spec0 winFacts0.arr_inj c _ _ 8).trans (final8 m hr c)
  rw [e8]
  funext i
  rfl

/-- Every execution of the kernel's program terminates with the first result at the specification's matrix of clipped
    log-probabilities, the second at the loss, and the seven arguments unchanged — when every label is a class index. -/
theorem run : θ_run defs (onTc (τ := τ) (main (F := Ideal))) ⟨m, fun _ => 0, ρ⟩ fun r => ∀ c : Dev nD,
      r.2.mem ((c : Thread nD τ).loc main_v7_0) = G7 m c
      ∧ r.2.mem ((c : Thread nD τ).loc main_v9) = (fun _ => lossOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h c).1 7).trans (final7 m c),
      ((h c).2 main_v9 (Pipeline.mem_restRefs_of main_v9 (by decide) (by decide))).trans (tail9 m hr c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 1).trans (((dats m 0 c).arrAt_in 1 rfl _).trans ((A_eq m c 1).trans (V_main_arg5 m c))),
      ((h c).2 main_arg6 (Pipeline.mem_restRefs_of main_arg6 (by decide) (by decide))).trans (W_main_arg6 m (dats m) c)⟩)
    (run_main m ρ)

end Cert.KernelIdeal.KVal

end
-- ==== Proof.lean ====
/-
  The kernel computes the conditional-entropy-bottleneck loss of a batch of 8192 samples in 32 blocks of 256 rows:
  per block the clipped log-probabilities of the 1000 classes, and, accumulated across the blocks, the sum of the
  row loss terms, divided by the batch size after the last block.  The reference computes the same two results with
  whole-array operations.  Over the extended reals the two agree when the features are finite — the reference forms
  (f + e) − f where the kernel uses e — and every label is a class index in [0, 1000): then the kernel's one-hot
  products and the reference's gathers both read the label's column.  The sums differ only in grouping (blocks of
  rows against all rows), which addition on the extended reals does not see.
-/
import proofs.«402298_j34050500722818_2_alg».proof.Defs
import proofs.«402298_j34050500722818_2_alg».proof.Proof.Gen.Kernel
import proofs.«402298_j34050500722818_2_alg».proof.Proof.Gen.Kernel.Frame
import proofs.«402298_j34050500722818_2_alg».proof.Proof.Gen.KernelIdeal
import proofs.«402298_j34050500722818_2_alg».proof.Proof.Gen.KernelIdeal.Frame
import proofs.«402298_j34050500722818_2_alg».proof.Proof.Gen.ReferenceIdeal
import proofs.«402298_j34050500722818_2_alg».proof.Proof.Gen.Pre_finite_inputs
import proofs.«402298_j34050500722818_2_alg».proof.Proof.RefRun
import proofs.«402298_j34050500722818_2_alg».proof.Proof.RefReadLoss
import proofs.«402298_j34050500722818_2_alg».proof.Proof.PreDecode
import proofs.«402298_j34050500722818_2_alg».proof.Proof.KValue

noncomputable section

namespace Cert.Proof

open Idealize.ShloMosaic Idealize.ShloMosaic.TcCoe Idealize.SL.Sem Idealize.ShloMosaic.ValueIdx

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run, with the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- Over the extended reals, for finite features and labels that are class indices, the kernel's program and the
    reference end with the same two results: the specification's matrix of clipped log-probabilities and its loss. -/
theorem algebraic : Cert.algebraic_KernelIdeal_ReferenceIdeal := by
  intro m ρ m' ρ' hpre hagree
  have hp := fun c => Cert.PreDecode.of_pre _ _ _ _ _ _ _ (hpre c)
  refine ⟨fun c => Cert.KernelIdeal.KVal.G7 m c, fun c => (fun _ => Cert.KernelIdeal.KVal.lossOf m c),
    Cert.KernelIdeal.KVal.run m ρ (fun c r => (hp c).2 r), ?_⟩
  refine (θ_run Cert.ReferenceIdeal.defs _ _).mono (fun _ h c => ?_) (Cert.ReferenceIdeal.RefRun.run (F := Ideal) m' ρ')
  obtain ⟨h16, h40, ha⟩ := h c
  obtain ⟨g0, g1, g2, g3, g4, g5, g6⟩ := hagree c
  refine ⟨h16.trans ?_, h40.trans ?_, ha⟩
  · rw [g0, g5, g3, g4]
    exact Cert.ReferenceIdeal.RefRead.outLogits_eq _ _ _ _
  · rw [g0, g1, g2, g3, g4, g5, g6]
    exact Cert.ReferenceIdeal.RefRead.outLoss_eq _ _ _ _ _ _ _ (hp c).1 (hp c).2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
